-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S16384x4096 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S128x4096 : Shape := ⟨2, ![128, 4096]⟩
abbrev S128x32x128 : Shape := ⟨3, ![128, 32, 128]⟩
abbrev S32x128 : Shape := ⟨2, ![32, 128]⟩
abbrev S32 : Shape := ⟨1, ![32]⟩
abbrev S32x1 : Shape := ⟨2, ![32, 1]⟩
abbrev S1x32x1 : Shape := ⟨3, ![1, 32, 1]⟩
abbrev S8192x4096 : Shape := ⟨2, ![8192, 4096]⟩
abbrev S1x16384 : Shape := ⟨2, ![1, 16384]⟩
abbrev S8192x16384 : Shape := ⟨2, ![8192, 16384]⟩
abbrev S512x1024 : Shape := ⟨2, ![512, 1024]⟩
abbrev S2048x1024 : Shape := ⟨2, ![2048, 1024]⟩
abbrev S1x2048 : Shape := ⟨2, ![1, 2048]⟩
abbrev S512x2048 : Shape := ⟨2, ![512, 2048]⟩
abbrev S4x2048x16384 : Shape := ⟨3, ![4, 2048, 16384]⟩

abbrev nBuf : Space → Nat
  | .hbm => 8
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S16384x4096, .bf16⟩
  | .hbm, ⟨4, _⟩ => ⟨S8192x4096, .f32⟩
  | .hbm, ⟨5, _⟩ => ⟨S1x16384, .f32⟩
  | .hbm, ⟨6, _⟩ => ⟨S8192x16384, .f32⟩
  | .hbm, ⟨7, _⟩ => ⟨S4x2048x16384, .f32⟩
  | .local _ .vmem, ⟨0, _⟩ => ⟨S128x4096, .f32⟩
  | .local _ .vmem, ⟨1, _⟩ => ⟨S128x4096, .f32⟩
  | .local _ .vmem, ⟨2, _⟩ => ⟨S128x4096, .bf16⟩
  | .local _ .vmem, ⟨3, _⟩ => ⟨S128x4096, .bf16⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | .local _ .vmem, ⟨7, _⟩ => ⟨S2048x1024, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![16, 8, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S128x4096_S128x4096_0_0 : ∀ a, (![0, 0] : Fin 2 → Nat) a + S128x4096.size a ≤ S128x4096.size a
  h_S128x4096 : 0 < S128x4096.numel
  shapeCasts_S128x4096_S128x32x128 : S128x4096.ShapeCasts S128x32x128
  reduces_S128x32x128_S32x128 : S128x32x128.Reduces [0] S32x128
  reduces_S32x128_S32 : S32x128.Reduces [1] S32
  shapeCasts_S32_S32x1 : S32.ShapeCasts S32x1
  shapeCasts_S32x1_S1x32x1 : S32x1.ShapeCasts S1x32x1
  broadcasts_S1x32x1_S128x32x128 : S1x32x1.Broadcasts S128x32x128
  shapeCasts_S128x32x128_S128x4096 : S128x32x128.ShapeCasts S128x4096
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  shapeCasts_S4x2048x4096_S8192x4096 : S4x2048x4096.ShapeCasts S8192x4096
  shapeCasts_S16384_S1x16384 : S16384.ShapeCasts S1x16384
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x16384_S4x2048x16384 : S8192x16384.ShapeCasts S4x2048x16384
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S16384x4096.size a
  hwx0_1 : ∀ i : grid0.Coords, EltTy.bits .bf16 = 32 ∨ (Rect.block (s := S16384x4096) S128x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x4096.size a
  hwx1_0 : ∀ i : grid1.Coords, EltTy.bits .f32 = 32 ∨ (Rect.block (s := S8192x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S16384x4096.size a
  hwx1_1 : ∀ i : grid1.Coords, EltTy.bits .bf16 = 32 ∨ (Rect.block (s := S16384x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x16384.size a
  hwx1_2 : ∀ i : grid1.Coords, EltTy.bits .f32 = 32 ∨ (Rect.block (s := S1x16384) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x16384.size a
  hwx1_3 : ∀ i : grid1.Coords, EltTy.bits .f32 = 32 ∨ (Rect.block (s := S8192x16384) S512x2048.size (cc1_transform_3 i) (hinb1_3 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S128x128x32x128 : Shape := ⟨4, ![128, 128, 32, 128]⟩
abbrev S128x32x128x128 : Shape := ⟨4, ![128, 32, 128, 128]⟩
abbrev S_ : Shape := ⟨0, ![]⟩
abbrev S128x32 : Shape := ⟨2, ![128, 32]⟩
abbrev S128x32x1x1 : Shape := ⟨4, ![128, 32, 1, 1]⟩
abbrev S4x2048x16384 : Shape := ⟨3, ![4, 2048, 16384]⟩
abbrev S1x1x16384 : Shape := ⟨3, ![1, 1, 16384]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S128x128x32x128, .f32⟩
  | .hbm, ⟨4, _⟩ => ⟨S128x32x128x128, .f32⟩
  | .hbm, ⟨5, _⟩ => ⟨S128x32x128x128, .f32⟩
  | .hbm, ⟨6, _⟩ => ⟨S_, .f32⟩
  | .hbm, ⟨7, _⟩ => ⟨S128x32, .f32⟩
  | .hbm, ⟨8, _⟩ => ⟨S128x32x1x1, .f32⟩
  | .hbm, ⟨9, _⟩ => ⟨S_, .f32⟩
  | .hbm, ⟨10, _⟩ => ⟨S128x32x1x1, .f32⟩
  | .hbm, ⟨11, _⟩ => ⟨S128x32x1x1, .f32⟩
  | .hbm, ⟨12, _⟩ => ⟨S_, .f32⟩
  | .hbm, ⟨13, _⟩ => ⟨S128x32x1x1, .f32⟩
  | .hbm, ⟨14, _⟩ => ⟨S128x32x1x1, .f32⟩
  | .hbm, ⟨15, _⟩ => ⟨S128x32x128x128, .f32⟩
  | .hbm, ⟨16, _⟩ => ⟨S128x32x128x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S128x32x128x128, .f32⟩
  | .hbm, ⟨21, _⟩ => ⟨S128x32x128x128, .f32⟩
  | .hbm, ⟨22, _⟩ => ⟨S_, .f32⟩
  | .hbm, ⟨23, _⟩ => ⟨S128x32x128x128, .f32⟩
  | .hbm, ⟨24, _⟩ => ⟨S128x32x128x128, .f32⟩
  | .hbm, ⟨25, _⟩ => ⟨S128x32x128x128, .f32⟩
  | .hbm, ⟨26, _⟩ => ⟨S128x32x128x128, .f32⟩
  | .hbm, ⟨27, _⟩ => ⟨S128x128x32x128, .f32⟩
  | .hbm, ⟨28, _⟩ => ⟨S16384x4096, .f32⟩
  | .hbm, ⟨29, _⟩ => ⟨S4x2048x16384, .f32⟩
  | .hbm, ⟨30, _⟩ => ⟨S1x1x16384, .f32⟩
  | .hbm, ⟨31, _⟩ => ⟨S4x2048x16384, .f32⟩
  | .hbm, ⟨32, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  shapeCasts_S16384x4096_S128x128x32x128 : S16384x4096.ShapeCasts S128x128x32x128
  transposes_S128x128x32x128_S128x32x128x128_0_2_1_3 : S128x128x32x128.Transposes [0, 2, 1, 3] S128x32x128x128
  reducesTo_S128x32x128x128_S128x32_d2_3 : S128x32x128x128.ReducesTo [2, 3] S128x32
  h_S_ : 0 < S_.numel
  bcast_S128x32_S128x32x1x1_0_1 : S128x32.BroadcastsInDim S128x32x1x1 (![0, 1] : Fin 2 → Fin S128x32x1x1.rank)
  bcast_S_S128x32x1x1 : S_.BroadcastsInDim S128x32x1x1 (![] : Fin 0 → Fin S128x32x1x1.rank)
  bcast_S128x32x1x1_S128x32x128x128_0_1_2_3 : S128x32x1x1.BroadcastsInDim S128x32x128x128 (![0, 1, 2, 3] : Fin 4 → Fin S128x32x128x128.rank)
  bcast_S_S128x32x128x128 : S_.BroadcastsInDim S128x32x128x128 (![] : Fin 0 → Fin S128x32x128x128.rank)
  transposes_S128x32x128x128_S128x128x32x128_0_2_1_3 : S128x32x128x128.Transposes [0, 2, 1, 3] S128x128x32x128
  shapeCasts_S128x128x32x128_S16384x4096 : S128x128x32x128.ShapeCasts S16384x4096
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.KReg0.lean ====
/-
  The first pallas_call (the block quantizer), as one region of the program's run, at any float instance.
  Each grid point t stages the 128 rows [128 t, 128 t + 128) of the weight, whole in width, and writes back
  the same rows of the de-quantized weight: the point's output block is ONE pure function (the body's single
  stored value) of the point's input block. The region keeps nothing between points.
-/
import proofs.«138467_j74577812128642_1_alg».proof.Proof.Gen.Kernel.Launch
import proofs.«138467_j74577812128642_1_alg».proof.Proof.Gen.Kernel.Skeleton
import proofs.«138467_j74577812128642_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 128 × 4096 rectangle: the one the body loads and stores through. -/
abbrev r0_0 : Rect S128x4096 := Rect.unit (s := S128x4096) ![0, 0] S128x4096.size inb_S128x4096_S128x4096_0_0

/-- What the body leaves in the output window's staging buffer, from the input block: its one store. -/
def out0_1 (x0 : Vec F S128x4096 .f32) : Vec F S128x4096 .bf16 :=
  View.canon [⟨r0_0, k0_pay1 (View.ld x0 r0_0)⟩]

theorem cover0_1 (p0 : Vec F S128x4096 .bf16) (y : S128x4096.Idx) :
    ∃ pc ∈ ([⟨r0_0, p0⟩] : List (View.Piece (Elt F) S128x4096 .bf16)), y ∈ pc.1.set :=
  View.cover_of_tiled [⟨r0_0, p0⟩] S128x4096.size (by rfl) y

set_option maxHeartbeats 1000000 in
/-- The body on whole staging memrefs: the input's contents kept, the output's at `out0_1` of them. -/
theorem sound_kernel0 (c : Dev nD) (E : Set ℕ) (i : grid0.Coords) (arg1 : Memref sig .tc .vmem S128x4096 .f32) (harg1 : arg1.IsWhole) (arg2 : Memref sig .tc .vmem S128x4096 .bf16) (harg2 : arg2.IsWhole)
    (x0 : Vec F S128x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KReg1Runs.lean ====
/-
  The second pallas_call (the tiled matrix product), at any float instance: what its three control cases share.
  The grid is 16 × 8 × 4, the last axis k the contraction's four column blocks; point t has k = t mod 4. At
  k = 0 the body clears its accumulator (a scratch buffer the kernel keeps from point to point); at every point
  it adds the product of the point's two input blocks to the accumulator; at k = 3 it stores accumulator plus
  bias into the output block, which is written back at those points only and left alone at the others.
-/
import proofs.«138467_j74577812128642_1_alg».proof.Proof.Gen.Kernel.Launch
import proofs.«138467_j74577812128642_1_alg».proof.Proof.Gen.Kernel.Skeleton
import proofs.«138467_j74577812128642_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, decided over the grid -/

/-- "k = 0": the accumulator is cleared. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 3 the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where k = 3 it is live. -/
theorem liveAt1_3 : ∀ t : Fin cfg1.N, cond1_1 (grid1.coords t) → cfg1.idle 3 (grid1.coords t) = false := by decide +kernel

/-! ## The memrefs the body is called with -/

abbrev VO1_3 : View sig .tc .vmem S512x2048 .f32 := (Memref.whole cc1_stg3_0 : Memref sig .tc .vmem S512x2048 .f32).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S512x2048 .f32 := Memref.whole cc1_scratch0
abbrev VS1_0 : View sig .tc .vmem S512x2048 .f32 := scM1_0.view

/-- The core's scoped buffers that are no staging buffer of this pallas_call: the first pallas_call's four staging
    buffers, each at some contents, and the accumulator, as `S` says. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ S)

/-- The class's region invariant with the accumulator as a memref owned at some contents. -/
theorem PhiA1_eq (c : Dev nD) :
    (Pipeline.ΦA spec1 c : sProp 𝕄)
      = iprop(scopedWith (F := F) c (iprop(∃ d, owns (c : Thread nD τ) scM1_0 fullShare d)) ∗ (∃ r, prngReg c r)) := by
  unfold Pipeline.ΦA scopedWith; rw [scopedRest1_eq]; simp only [scM1_0, owns_whole]; try rfl

end Cert.Kernel.Hand

end
-- ==== Proof.KReg1A.lean ====
/-
  The matrix-product body at a point with k = 0: the accumulator, at any contents, is cleared and then holds the
  product of the point's two input blocks; the bias block and the output block are not touched.
-/
import proofs.«138467_j74577812128642_1_alg».proof.Proof.KReg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first), with the proof that on whole memrefs the body runs from the
    stated contents to the continuation holding each input as it was and each stored buffer with its pieces written. -/
noncomputable def kernelRun1_A (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x1024 .f32) (x1 : Vec F S2048x1024 .bf16) (x2 : Vec F S1x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KReg1B.lean ====
/-
  The matrix-product body at a point with k = 1 or 2: the accumulator, at what the point before left, gains the
  product of the point's two input blocks; the bias block and the output block are not touched.
-/
import proofs.«138467_j74577812128642_1_alg».proof.Proof.KReg1A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first), with the proof that on whole memrefs the body runs from the
    stated contents to the continuation holding each input as it was and each stored buffer with its pieces written. -/
noncomputable def kernelRun1_B (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x1024 .f32) (x1 : Vec F S2048x1024 .bf16) (x2 : Vec F S1x2048 .f32) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KReg1C.lean ====
/-
  The matrix-product body at a point with k = 3: the accumulator, at what the point before left, gains the product
  of the point's two input blocks, and the output block, at any contents, is stored whole: accumulator plus bias.
-/
import proofs.«138467_j74577812128642_1_alg».proof.Proof.KReg1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first), with the proof that on whole memrefs the body runs from the
    stated contents to the continuation holding each input as it was and each stored buffer with its pieces written. -/
noncomputable def kernelRun1_C (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x1024 .f32) (x1 : Vec F S2048x1024 .bf16) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KReg1.lean ====
/-
  The second pallas_call (the tiled matrix product) as one region of the program's run, at any float instance.
  What the output block's staging buffer and the accumulator hold after each point is a recursion over the
  points: at k = 0 the accumulator restarts from zero, elsewhere it continues from what the point before left; the
  region's invariant carries the accumulator at that named value from point to point.
-/
import proofs.«138467_j74577812128642_1_alg».proof.Proof.KReg1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block's staging buffer (nothing is stored there: a placeholder nothing consults, the window being idle and not written back at these points). -/
def out1_A_3 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x1024 .f32) (x1 : Vec F S2048x1024 .bf16) (x2 : Vec F S1x2048 .f32) : Vec F S512x2048 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x1024 .f32) (x1 : Vec F S2048x1024 .bf16) (x2 : Vec F S1x2048 .f32) (y : S512x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S512x2048.size (by sl_kernel_rfl) y

/-- What case A leaves in the accumulator. -/
def sout1_A_0 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x1024 .f32) (x1 : Vec F S2048x1024 .bf16) (x2 : Vec F S1x2048 .f32) : Vec F S512x2048 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output block's staging buffer (nothing is stored there: a placeholder nothing consults, the window being idle and not written back at these points). -/
def out1_B_3 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x1024 .f32) (x1 : Vec F S2048x1024 .bf16) (x2 : Vec F S1x2048 .f32) (xs0 : Vec F S512x2048 .f32) : Vec F S512x2048 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x1024 .f32) (x1 : Vec F S2048x1024 .bf16) (x2 : Vec F S1x2048 .f32) (xs0 : Vec F S512x2048 .f32) (y : S512x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S512x2048.size (by sl_kernel_rfl) y

/-- What case B leaves in the accumulator. -/
def sout1_B_0 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x1024 .f32) (x1 : Vec F S2048x1024 .bf16) (x2 : Vec F S1x2048 .f32) (xs0 : Vec F S512x2048 .f32) : Vec F S512x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's one store into the output block covers it. -/
theorem cover1_C_3 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x1024 .f32) (x1 : Vec F S2048x1024 .bf16) (x2 : Vec F S1x2048 .f32) (xs0 : Vec F S512x2048 .f32) (y : S512x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S512x2048.size (by sl_kernel_rfl) y

/-- What case C leaves in the output block's staging buffer. -/
def out1_C_3 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x1024 .f32) (x1 : Vec F S2048x1024 .bf16) (x2 : Vec F S1x2048 .f32) (xs0 : Vec F S512x2048 .f32) : Vec F S512x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x1024 .f32) (x1 : Vec F S2048x1024 .bf16) (x2 : Vec F S1x2048 .f32) (xs0 : Vec F S512x2048 .f32) (y : S512x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S512x2048.size (by sl_kernel_rfl) y

/-- What case C leaves in the accumulator. -/
def sout1_C_0 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x1024 .f32) (x1 : Vec F S2048x1024 .bf16) (x2 : Vec F S1x2048 .f32) (xs0 : Vec F S512x2048 .f32) : Vec F S512x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

section Region1

variable (V : (c : Dev nD) → (b : Ref sig .tc) → Buf (Elt F) ((c : Thread nD τ).loc b))

/-- What the output block's staging buffer and the accumulator hold after the body at position `n`. -/
def outsAt1 (c : Dev nD) : (n : ℕ) → n < cfg1.N → Vec F S512x2048 .f32 × Vec F S512x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the same with the
    accumulator at what the point before left in it. -/
def PhiS1 (c : Dev nD) : (n : ℕ) → n ≤ cfg1.N → sProp 𝕄
  | 0, _ => Pipeline.ΦA spec1 c
  | n + 1, hn => iprop(scopedWith (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith (F := F) c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(scopedWith (F := F) c (owns (c : Thread nD τ) scM1_0 fullShare ((outsAt1 V c (n - 1) (by omega)).2)) ∗ (∃ r, prngReg c r)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the closed forms say which case the point is in; the invariant hands the body the
    accumulator at what the point before left (at anything at the first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]; unfold scopedWith
        iintro ⟨⟨⟨Ha, Hb, Hc, Hd, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]; unfold scopedWith
        iintro ⟨⟨⟨Ha, Hb, Hc, Hd, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]; unfold scopedWith
        iintro ⟨⟨⟨Ha, Hb, Hc, Hd, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]; unfold scopedWith
        iintro ⟨⟨⟨Ha, Hb, Hc, Hd, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold scopedWith
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

theorem hout1 (c : Dev nD) : (dat1 V c).Φ (Fin.last cfg1.N) ⊢ Pipeline.ΦA spec1 c :=
  Phi_out1 V c _ (by rw [Fin.val_last]; have : cfg1.N = 512 := N_1; omega)

end Region1

end Cert.Kernel.Hand

end
-- ==== Proof.KRun.lean ====
/-
  The whole run of the program, at any float instance: @main is the first pallas_call, two reshapes, the second
  pallas_call, one reshape. The unscoped buffers' contents at each of the five boundaries are a fold from the
  launch memory: a pallas_call leaves its arrays at what its write-backs produce and every other buffer alone, a
  stretch of host operations applies them in order. Every weakly fair execution terminates with every unscoped
  buffer at the last boundary's contents; no item writes an argument.
-/
import proofs.«138467_j74577812128642_1_alg».proof.Proof.KReg0
import proofs.«138467_j74577812128642_1_alg».proof.Proof.KReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wb0 : Dev nD → Valuation τ sig (Elt F) := fun c b => (s₀ m ρ).mem ((c : Dev nD), b)
abbrev Vb0 : (c : Dev nD) → (b : Ref sig .tc) → Buf (Elt F) ((c : Thread nD τ).loc b) := fun c b => Wb0 m ρ c b
/-- After the first pallas_call: its arrays at what its write-backs leave. -/
def Wb1 (c : Dev nD) : Valuation τ sig (Elt F) :=
  Pipeline.withArrays spec0 c (Wb0 m ρ c) fun w => (dat0 (Vb0 m ρ) c).arrAt w cfg0.N
theorem Wb1_arr (c : Dev nD) (w : Fin cfg0.W) :
    Wb1 m ρ c (Proc.devRef .tc (Pipeline.arrRef spec0 w)) = (dat0 (Vb0 m ρ) c).arrAt w cfg0.N := by
  unfold Wb1; exact Pipeline.withArrays_arr spec0 launch0.win.arr_inj c _ _ w
theorem Wb1_of_ne (c : Dev nD) (b : Ref sig .tc) (hb : ∀ w, Pipeline.arrRef spec0 w ≠ b) :
    Wb1 m ρ c (Proc.devRef .tc b) = Wb0 m ρ c (Proc.devRef .tc b) := by
  unfold Wb1; exact Pipeline.withArrays_of_ne spec0 c _ _ b hb
abbrev Vb1 : (c : Dev nD) → (b : Ref sig .tc) → Buf (Elt F) ((c : Thread nD τ).loc b) := fun c b => Wb1 m ρ c b
theorem hF0 (c : Dev nD) (w : Fin cfg0.W) : (dat0 (Vb0 m ρ) c).arrAt w cfg0.N = Vb1 m ρ c (Pipeline.arrRef spec0 w) :=
  (Wb1_arr m ρ c w).symm
theorem hrest0 (c : Dev nD) : ∀ b, b ∉ Finset.univ.image (Pipeline.arrRef spec0) → Vb1 m ρ c b = Vb0 m ρ c b :=
  fun b hb => Wb1_of_ne m ρ c b fun w e => hb (Finset.mem_image.mpr ⟨w, Finset.mem_univ _, e⟩)
/-- After the two reshapes. -/
abbrev Wb2 : Dev nD → Valuation τ sig (Elt F) := fun c => StableHlo.after hostOps1 (Wb1 m ρ c)
abbrev Vb2 : (c : Dev nD) → (b : Ref sig .tc) → Buf (Elt F) ((c : Thread nD τ).loc b) := fun c b => Wb2 m ρ c b
/-- After the second pallas_call. -/
def Wb3 (c : Dev nD) : Valuation τ sig (Elt F) :=
  Pipeline.withArrays spec1 c (Wb2 m ρ c) fun w => (dat1 (Vb2 m ρ) c).arrAt w cfg1.N
theorem Wb3_arr (c : Dev nD) (w : Fin cfg1.W) :
    Wb3 m ρ c (Proc.devRef .tc (Pipeline.arrRef spec1 w)) = (dat1 (Vb2 m ρ) c).arrAt w cfg1.N := by
  unfold Wb3; exact Pipeline.withArrays_arr spec1 launch1.win.arr_inj c _ _ w
theorem Wb3_of_ne (c : Dev nD) (b : Ref sig .tc) (hb : ∀ w, Pipeline.arrRef spec1 w ≠ b) :
    Wb3 m ρ c (Proc.devRef .tc b) = Wb2 m ρ c (Proc.devRef .tc b) := by
  unfold Wb3; exact Pipeline.withArrays_of_ne spec1 c _ _ b hb
abbrev Vb3 : (c : Dev nD) → (b : Ref sig .tc) → Buf (Elt F) ((c : Thread nD τ).loc b) := fun c b => Wb3 m ρ c b
theorem hF1 (c : Dev nD) (w : Fin cfg1.W) : (dat1 (Vb2 m ρ) c).arrAt w cfg1.N = Vb3 m ρ c (Pipeline.arrRef spec1 w) :=
  (Wb3_arr m ρ c w).symm
theorem hrest1 (c : Dev nD) : ∀ b, b ∉ Finset.univ.image (Pipeline.arrRef spec1) → Vb3 m ρ c b = Vb2 m ρ c b :=
  fun b hb => Wb3_of_ne m ρ c b fun w e => hb (Finset.mem_image.mpr ⟨w, Finset.mem_univ _, e⟩)
/-- After the last reshape. -/
abbrev Wb4 : Dev nD → Valuation τ sig (Elt F) := fun c => StableHlo.after hostOps2 (Wb3 m ρ c)

/-! ## The arguments end as launched -/

theorem Wb4_main_arg0 (c : Dev nD) : Wb4 m ρ c (Proc.devRef .tc main_arg0) = m ((c : Thread nD τ).loc main_arg0) :=
  calc Wb4 m ρ c (Proc.devRef .tc main_arg0)
    _ = Wb3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb2 m ρ c (Proc.devRef .tc main_arg0) := Wb3_of_ne m ρ c main_arg0 (by decide)
    _ = Wb1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb0 m ρ c (Proc.devRef .tc main_arg0) := Wb1_of_ne m ρ c main_arg0 (by decide)
    _ = m ((c : Thread nD τ).loc main_arg0) := rfl

theorem Wb4_main_arg1 (c : Dev nD) : Wb4 m ρ c (Proc.devRef .tc main_arg1) = m ((c : Thread nD τ).loc main_arg1) :=
  calc Wb4 m ρ c (Proc.devRef .tc main_arg1)
    _ = Wb3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb2 m ρ c (Proc.devRef .tc main_arg1) := Wb3_of_ne m ρ c main_arg1 (by decide)
    _ = Wb1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb0 m ρ c (Proc.devRef .tc main_arg1) := (Wb1_arr m ρ c 0).trans (((dat0 (Vb0 m ρ) c).arrAt_in 0 rfl _).trans (A_eq0 (Vb0 m ρ) c 0))
    _ = m ((c : Thread nD τ).loc main_arg1) := rfl

theorem Wb4_main_arg2 (c : Dev nD) : Wb4 m ρ c (Proc.devRef .tc main_arg2) = m ((c : Thread nD τ).loc main_arg2) :=
  calc Wb4 m ρ c (Proc.devRef .tc main_arg2)
    _ = Wb3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb2 m ρ c (Proc.devRef .tc main_arg2) := Wb3_of_ne m ρ c main_arg2 (by decide)
    _ = Wb1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb0 m ρ c (Proc.devRef .tc main_arg2) := Wb1_of_ne m ρ c main_arg2 (by decide)
    _ = m ((c : Thread nD τ).loc main_arg2) := rfl

/-! ## The proof data family and the thread state -/

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (Vb0 m ρ) c
  | ⟨1, _⟩ => fun c => dat1 (Vb2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Wb4 m ρ c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at what the write-backs
    leave at exit; no semaphore of the kernel's own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb0 m ρ) c).loose
  hwaits := Pipeline.hwaits_of_owed_zero _ _ _ _ L lv 0 fun _ _ => rfl
  pre c := iprop(StableHlo.held (c : Thread nD τ) (Pipeline.ucRefs τ sig) (Wb0 m ρ c) ∗ R c)
  post c := iprop(StableHlo.held (c : Thread nD τ) (Pipeline.ucRefs τ sig) (Wb1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Vb0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Vb0 m ρ c) (Vb1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at what the write-backs
    leave at exit; no semaphore of the kernel's own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb2 m ρ) c).loose
  hwaits := Pipeline.hwaits_of_owed_zero _ _ _ _ L lv 1 fun _ _ => rfl
  pre c := iprop(StableHlo.held (c : Thread nD τ) (Pipeline.ucRefs τ sig) (Wb2 m ρ c) ∗ R c)
  post c := iprop(StableHlo.held (c : Thread nD τ) (Pipeline.ucRefs τ sig) (Wb3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (Vb2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (Vb2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (Vb2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (Vb2 m ρ c) (Vb3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .region (reg0 m ρ),
    .host (hseg hostOps1 hostOps1_sub hostOps1_freshH (Wb1 m ρ)),
    .region (reg1 m ρ),
    .host (hseg hostOps2 hostOps2_sub hostOps2_freshH (Wb3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb4 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (Wb4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (Wb4_main_arg0 m ρ c),
     (h c _ (mem_uc main_arg1 (by decide))).trans (Wb4_main_arg1 m ρ c),
     (h c _ (mem_uc main_arg2 (by decide))).trans (Wb4_main_arg2 m ρ c)⟩) (run_all m ρ)

end Cert.Kernel.Hand

end
-- ==== Proof.KIReg0.lean ====
/-
  The first pallas_call (the block quantizer), as one region of the program's run, at any float instance.
  Each grid point t stages the 128 rows [128 t, 128 t + 128) of the weight, whole in width, and writes back
  the same rows of the de-quantized weight: the point's output block is ONE pure function (the body's single
  stored value) of the point's input block. The region keeps nothing between points.
-/
import proofs.«138467_j74577812128642_1_alg».proof.Proof.Gen.KernelIdeal.Launch
import proofs.«138467_j74577812128642_1_alg».proof.Proof.Gen.KernelIdeal.Skeleton
import proofs.«138467_j74577812128642_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 128 × 4096 rectangle: the one the body loads and stores through. -/
abbrev r0_0 : Rect S128x4096 := Rect.unit (s := S128x4096) ![0, 0] S128x4096.size inb_S128x4096_S128x4096_0_0

/-- What the body leaves in the output window's staging buffer, from the input block: its one store. -/
def out0_1 (x0 : Vec F S128x4096 .f32) : Vec F S128x4096 .bf16 :=
  View.canon [⟨r0_0, k0_pay1 (View.ld x0 r0_0)⟩]

theorem cover0_1 (p0 : Vec F S128x4096 .bf16) (y : S128x4096.Idx) :
    ∃ pc ∈ ([⟨r0_0, p0⟩] : List (View.Piece (Elt F) S128x4096 .bf16)), y ∈ pc.1.set :=
  View.cover_of_tiled [⟨r0_0, p0⟩] S128x4096.size (by rfl) y

set_option maxHeartbeats 1000000 in
/-- The body on whole staging memrefs: the input's contents kept, the output's at `out0_1` of them. -/
theorem sound_kernel0 (c : Dev nD) (E : Set ℕ) (i : grid0.Coords) (arg1 : Memref sig .tc .vmem S128x4096 .f32) (harg1 : arg1.IsWhole) (arg2 : Memref sig .tc .vmem S128x4096 .bf16) (harg2 : arg2.IsWhole)
    (x0 : Vec F S128x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIReg1Runs.lean ====
/-
  The second pallas_call (the tiled matrix product), at any float instance: what its three control cases share.
  The grid is 16 × 8 × 4, the last axis k the contraction's four column blocks; point t has k = t mod 4. At
  k = 0 the body clears its accumulator (a scratch buffer the kernel keeps from point to point); at every point
  it adds the product of the point's two input blocks to the accumulator; at k = 3 it stores accumulator plus
  bias into the output block, which is written back at those points only and left alone at the others.
-/
import proofs.«138467_j74577812128642_1_alg».proof.Proof.Gen.KernelIdeal.Launch
import proofs.«138467_j74577812128642_1_alg».proof.Proof.Gen.KernelIdeal.Skeleton
import proofs.«138467_j74577812128642_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, decided over the grid -/

/-- "k = 0": the accumulator is cleared. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 3 the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where k = 3 it is live. -/
theorem liveAt1_3 : ∀ t : Fin cfg1.N, cond1_1 (grid1.coords t) → cfg1.idle 3 (grid1.coords t) = false := by decide +kernel

/-! ## The memrefs the body is called with -/

abbrev VO1_3 : View sig .tc .vmem S512x2048 .f32 := (Memref.whole cc1_stg3_0 : Memref sig .tc .vmem S512x2048 .f32).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S512x2048 .f32 := Memref.whole cc1_scratch0
abbrev VS1_0 : View sig .tc .vmem S512x2048 .f32 := scM1_0.view

/-- The core's scoped buffers that are no staging buffer of this pallas_call: the first pallas_call's four staging
    buffers, each at some contents, and the accumulator, as `S` says. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ S)

/-- The class's region invariant with the accumulator as a memref owned at some contents. -/
theorem PhiA1_eq (c : Dev nD) :
    (Pipeline.ΦA spec1 c : sProp 𝕄)
      = iprop(scopedWith (F := F) c (iprop(∃ d, owns (c : Thread nD τ) scM1_0 fullShare d)) ∗ (∃ r, prngReg c r)) := by
  unfold Pipeline.ΦA scopedWith; rw [scopedRest1_eq]; simp only [scM1_0, owns_whole]; try rfl

end Cert.KernelIdeal.Hand

end
-- ==== Proof.KIReg1A.lean ====
/-
  The matrix-product body at a point with k = 0: the accumulator, at any contents, is cleared and then holds the
  product of the point's two input blocks; the bias block and the output block are not touched.
-/
import proofs.«138467_j74577812128642_1_alg».proof.Proof.KIReg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first), with the proof that on whole memrefs the body runs from the
    stated contents to the continuation holding each input as it was and each stored buffer with its pieces written. -/
noncomputable def kernelRun1_A (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x1024 .f32) (x1 : Vec F S2048x1024 .bf16) (x2 : Vec F S1x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KIReg1B.lean ====
/-
  The matrix-product body at a point with k = 1 or 2: the accumulator, at what the point before left, gains the
  product of the point's two input blocks; the bias block and the output block are not touched.
-/
import proofs.«138467_j74577812128642_1_alg».proof.Proof.KIReg1A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first), with the proof that on whole memrefs the body runs from the
    stated contents to the continuation holding each input as it was and each stored buffer with its pieces written. -/
noncomputable def kernelRun1_B (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x1024 .f32) (x1 : Vec F S2048x1024 .bf16) (x2 : Vec F S1x2048 .f32) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KIReg1C.lean ====
/-
  The matrix-product body at a point with k = 3: the accumulator, at what the point before left, gains the product
  of the point's two input blocks, and the output block, at any contents, is stored whole: accumulator plus bias.
-/
import proofs.«138467_j74577812128642_1_alg».proof.Proof.KIReg1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave (last first), with the proof that on whole memrefs the body runs from the
    stated contents to the continuation holding each input as it was and each stored buffer with its pieces written. -/
noncomputable def kernelRun1_C (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x1024 .f32) (x1 : Vec F S2048x1024 .bf16) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KIReg1.lean ====
/-
  The second pallas_call (the tiled matrix product) as one region of the program's run, at any float instance.
  What the output block's staging buffer and the accumulator hold after each point is a recursion over the
  points: at k = 0 the accumulator restarts from zero, elsewhere it continues from what the point before left; the
  region's invariant carries the accumulator at that named value from point to point.
-/
import proofs.«138467_j74577812128642_1_alg».proof.Proof.KIReg1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block's staging buffer (nothing is stored there: a placeholder nothing consults, the window being idle and not written back at these points). -/
def out1_A_3 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x1024 .f32) (x1 : Vec F S2048x1024 .bf16) (x2 : Vec F S1x2048 .f32) : Vec F S512x2048 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x1024 .f32) (x1 : Vec F S2048x1024 .bf16) (x2 : Vec F S1x2048 .f32) (y : S512x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S512x2048.size (by sl_kernel_rfl) y

/-- What case A leaves in the accumulator. -/
def sout1_A_0 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x1024 .f32) (x1 : Vec F S2048x1024 .bf16) (x2 : Vec F S1x2048 .f32) : Vec F S512x2048 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output block's staging buffer (nothing is stored there: a placeholder nothing consults, the window being idle and not written back at these points). -/
def out1_B_3 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x1024 .f32) (x1 : Vec F S2048x1024 .bf16) (x2 : Vec F S1x2048 .f32) (xs0 : Vec F S512x2048 .f32) : Vec F S512x2048 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x1024 .f32) (x1 : Vec F S2048x1024 .bf16) (x2 : Vec F S1x2048 .f32) (xs0 : Vec F S512x2048 .f32) (y : S512x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S512x2048.size (by sl_kernel_rfl) y

/-- What case B leaves in the accumulator. -/
def sout1_B_0 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x1024 .f32) (x1 : Vec F S2048x1024 .bf16) (x2 : Vec F S1x2048 .f32) (xs0 : Vec F S512x2048 .f32) : Vec F S512x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's one store into the output block covers it. -/
theorem cover1_C_3 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x1024 .f32) (x1 : Vec F S2048x1024 .bf16) (x2 : Vec F S1x2048 .f32) (xs0 : Vec F S512x2048 .f32) (y : S512x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S512x2048.size (by sl_kernel_rfl) y

/-- What case C leaves in the output block's staging buffer. -/
def out1_C_3 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x1024 .f32) (x1 : Vec F S2048x1024 .bf16) (x2 : Vec F S1x2048 .f32) (xs0 : Vec F S512x2048 .f32) : Vec F S512x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x1024 .f32) (x1 : Vec F S2048x1024 .bf16) (x2 : Vec F S1x2048 .f32) (xs0 : Vec F S512x2048 .f32) (y : S512x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S512x2048.size (by sl_kernel_rfl) y

/-- What case C leaves in the accumulator. -/
def sout1_C_0 (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x1024 .f32) (x1 : Vec F S2048x1024 .bf16) (x2 : Vec F S1x2048 .f32) (xs0 : Vec F S512x2048 .f32) : Vec F S512x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

section Region1

variable (V : (c : Dev nD) → (b : Ref sig .tc) → Buf (Elt F) ((c : Thread nD τ).loc b))

/-- What the output block's staging buffer and the accumulator hold after the body at position `n`. -/
def outsAt1 (c : Dev nD) : (n : ℕ) → n < cfg1.N → Vec F S512x2048 .f32 × Vec F S512x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's; afterwards the same with the
    accumulator at what the point before left in it. -/
def PhiS1 (c : Dev nD) : (n : ℕ) → n ≤ cfg1.N → sProp 𝕄
  | 0, _ => Pipeline.ΦA spec1 c
  | n + 1, hn => iprop(scopedWith (F := F) c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith (F := F) c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(scopedWith (F := F) c (owns (c : Thread nD τ) scM1_0 fullShare ((outsAt1 V c (n - 1) (by omega)).2)) ∗ (∃ r, prngReg c r)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the closed forms say which case the point is in; the invariant hands the body the
    accumulator at what the point before left (at anything at the first point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]; unfold scopedWith
        iintro ⟨⟨⟨Ha, Hb, Hc, Hd, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]; unfold scopedWith
        iintro ⟨⟨⟨Ha, Hb, Hc, Hd, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]; unfold scopedWith
        iintro ⟨⟨⟨Ha, Hb, Hc, Hd, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]; unfold scopedWith
        iintro ⟨⟨⟨Ha, Hb, Hc, Hd, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd HS0 Hg]
        · isplitl [Ha Hb Hc Hd HS0]
          · isplitl [Ha]; · iexact Ha
            isplitl [Hb]; · iexact Hb
            isplitl [Hc]; · iexact Hc
            isplitl [Hd]; · iexact Hd
            unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]; unfold scopedWith
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

theorem hout1 (c : Dev nD) : (dat1 V c).Φ (Fin.last cfg1.N) ⊢ Pipeline.ΦA spec1 c :=
  Phi_out1 V c _ (by rw [Fin.val_last]; have : cfg1.N = 512 := N_1; omega)

end Region1

end Cert.KernelIdeal.Hand

end
-- ==== Proof.KIRun.lean ====
/-
  The whole run of the program, at any float instance: @main is the first pallas_call, two reshapes, the second
  pallas_call, one reshape. The unscoped buffers' contents at each of the five boundaries are a fold from the
  launch memory: a pallas_call leaves its arrays at what its write-backs produce and every other buffer alone, a
  stretch of host operations applies them in order. Every weakly fair execution terminates with every unscoped
  buffer at the last boundary's contents; no item writes an argument.
-/
import proofs.«138467_j74577812128642_1_alg».proof.Proof.KIReg0
import proofs.«138467_j74577812128642_1_alg».proof.Proof.KIReg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wb0 : Dev nD → Valuation τ sig (Elt F) := fun c b => (s₀ m ρ).mem ((c : Dev nD), b)
abbrev Vb0 : (c : Dev nD) → (b : Ref sig .tc) → Buf (Elt F) ((c : Thread nD τ).loc b) := fun c b => Wb0 m ρ c b
/-- After the first pallas_call: its arrays at what its write-backs leave. -/
def Wb1 (c : Dev nD) : Valuation τ sig (Elt F) :=
  Pipeline.withArrays spec0 c (Wb0 m ρ c) fun w => (dat0 (Vb0 m ρ) c).arrAt w cfg0.N
theorem Wb1_arr (c : Dev nD) (w : Fin cfg0.W) :
    Wb1 m ρ c (Proc.devRef .tc (Pipeline.arrRef spec0 w)) = (dat0 (Vb0 m ρ) c).arrAt w cfg0.N := by
  unfold Wb1; exact Pipeline.withArrays_arr spec0 launch0.win.arr_inj c _ _ w
theorem Wb1_of_ne (c : Dev nD) (b : Ref sig .tc) (hb : ∀ w, Pipeline.arrRef spec0 w ≠ b) :
    Wb1 m ρ c (Proc.devRef .tc b) = Wb0 m ρ c (Proc.devRef .tc b) := by
  unfold Wb1; exact Pipeline.withArrays_of_ne spec0 c _ _ b hb
abbrev Vb1 : (c : Dev nD) → (b : Ref sig .tc) → Buf (Elt F) ((c : Thread nD τ).loc b) := fun c b => Wb1 m ρ c b
theorem hF0 (c : Dev nD) (w : Fin cfg0.W) : (dat0 (Vb0 m ρ) c).arrAt w cfg0.N = Vb1 m ρ c (Pipeline.arrRef spec0 w) :=
  (Wb1_arr m ρ c w).symm
theorem hrest0 (c : Dev nD) : ∀ b, b ∉ Finset.univ.image (Pipeline.arrRef spec0) → Vb1 m ρ c b = Vb0 m ρ c b :=
  fun b hb => Wb1_of_ne m ρ c b fun w e => hb (Finset.mem_image.mpr ⟨w, Finset.mem_univ _, e⟩)
/-- After the two reshapes. -/
abbrev Wb2 : Dev nD → Valuation τ sig (Elt F) := fun c => StableHlo.after hostOps1 (Wb1 m ρ c)
abbrev Vb2 : (c : Dev nD) → (b : Ref sig .tc) → Buf (Elt F) ((c : Thread nD τ).loc b) := fun c b => Wb2 m ρ c b
/-- After the second pallas_call. -/
def Wb3 (c : Dev nD) : Valuation τ sig (Elt F) :=
  Pipeline.withArrays spec1 c (Wb2 m ρ c) fun w => (dat1 (Vb2 m ρ) c).arrAt w cfg1.N
theorem Wb3_arr (c : Dev nD) (w : Fin cfg1.W) :
    Wb3 m ρ c (Proc.devRef .tc (Pipeline.arrRef spec1 w)) = (dat1 (Vb2 m ρ) c).arrAt w cfg1.N := by
  unfold Wb3; exact Pipeline.withArrays_arr spec1 launch1.win.arr_inj c _ _ w
theorem Wb3_of_ne (c : Dev nD) (b : Ref sig .tc) (hb : ∀ w, Pipeline.arrRef spec1 w ≠ b) :
    Wb3 m ρ c (Proc.devRef .tc b) = Wb2 m ρ c (Proc.devRef .tc b) := by
  unfold Wb3; exact Pipeline.withArrays_of_ne spec1 c _ _ b hb
abbrev Vb3 : (c : Dev nD) → (b : Ref sig .tc) → Buf (Elt F) ((c : Thread nD τ).loc b) := fun c b => Wb3 m ρ c b
theorem hF1 (c : Dev nD) (w : Fin cfg1.W) : (dat1 (Vb2 m ρ) c).arrAt w cfg1.N = Vb3 m ρ c (Pipeline.arrRef spec1 w) :=
  (Wb3_arr m ρ c w).symm
theorem hrest1 (c : Dev nD) : ∀ b, b ∉ Finset.univ.image (Pipeline.arrRef spec1) → Vb3 m ρ c b = Vb2 m ρ c b :=
  fun b hb => Wb3_of_ne m ρ c b fun w e => hb (Finset.mem_image.mpr ⟨w, Finset.mem_univ _, e⟩)
/-- After the last reshape. -/
abbrev Wb4 : Dev nD → Valuation τ sig (Elt F) := fun c => StableHlo.after hostOps2 (Wb3 m ρ c)

/-! ## The arguments end as launched -/

theorem Wb4_main_arg0 (c : Dev nD) : Wb4 m ρ c (Proc.devRef .tc main_arg0) = m ((c : Thread nD τ).loc main_arg0) :=
  calc Wb4 m ρ c (Proc.devRef .tc main_arg0)
    _ = Wb3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb2 m ρ c (Proc.devRef .tc main_arg0) := Wb3_of_ne m ρ c main_arg0 (by decide)
    _ = Wb1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb0 m ρ c (Proc.devRef .tc main_arg0) := Wb1_of_ne m ρ c main_arg0 (by decide)
    _ = m ((c : Thread nD τ).loc main_arg0) := rfl

theorem Wb4_main_arg1 (c : Dev nD) : Wb4 m ρ c (Proc.devRef .tc main_arg1) = m ((c : Thread nD τ).loc main_arg1) :=
  calc Wb4 m ρ c (Proc.devRef .tc main_arg1)
    _ = Wb3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb2 m ρ c (Proc.devRef .tc main_arg1) := Wb3_of_ne m ρ c main_arg1 (by decide)
    _ = Wb1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb0 m ρ c (Proc.devRef .tc main_arg1) := (Wb1_arr m ρ c 0).trans (((dat0 (Vb0 m ρ) c).arrAt_in 0 rfl _).trans (A_eq0 (Vb0 m ρ) c 0))
    _ = m ((c : Thread nD τ).loc main_arg1) := rfl

theorem Wb4_main_arg2 (c : Dev nD) : Wb4 m ρ c (Proc.devRef .tc main_arg2) = m ((c : Thread nD τ).loc main_arg2) :=
  calc Wb4 m ρ c (Proc.devRef .tc main_arg2)
    _ = Wb3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb2 m ρ c (Proc.devRef .tc main_arg2) := Wb3_of_ne m ρ c main_arg2 (by decide)
    _ = Wb1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Wb0 m ρ c (Proc.devRef .tc main_arg2) := Wb1_of_ne m ρ c main_arg2 (by decide)
    _ = m ((c : Thread nD τ).loc main_arg2) := rfl

/-! ## The proof data family and the thread state -/

abbrev admH : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) admH p) c
  | ⟨0, _⟩ => fun c => dat0 (Vb0 m ρ) c
  | ⟨1, _⟩ => fun c => dat1 (Vb2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Wb4 m ρ c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at what the write-backs
    leave at exit; no semaphore of the kernel's own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb0 m ρ) c).loose
  hwaits := Pipeline.hwaits_of_owed_zero _ _ _ _ L lv 0 fun _ _ => rfl
  pre c := iprop(StableHlo.held (c : Thread nD τ) (Pipeline.ucRefs τ sig) (Wb0 m ρ c) ∗ R c)
  post c := iprop(StableHlo.held (c : Thread nD τ) (Pipeline.ucRefs τ sig) (Wb1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (Vb0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (Vb0 m ρ c) (Vb1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at what the write-backs
    leave at exit; no semaphore of the kernel's own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb2 m ρ) c).loose
  hwaits := Pipeline.hwaits_of_owed_zero _ _ _ _ L lv 1 fun _ _ => rfl
  pre c := iprop(StableHlo.held (c : Thread nD τ) (Pipeline.ucRefs τ sig) (Wb2 m ρ c) ∗ R c)
  post c := iprop(StableHlo.held (c : Thread nD τ) (Pipeline.ucRefs τ sig) (Wb3 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (Vb2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m ρ 1 c).Φ 0 from hin1 (Vb2 m ρ) c)
    unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (Vb2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (Vb2 m ρ c) (Vb3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .region (reg0 m ρ),
    .host (hseg hostOps1 hostOps1_sub hostOps1_freshH (Wb1 m ρ)),
    .region (reg1 m ρ),
    .host (hseg hostOps2 hostOps2_sub hostOps2_freshH (Wb3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb4 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (Wb4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (Wb4_main_arg0 m ρ c),
     (h c _ (mem_uc main_arg1 (by decide))).trans (Wb4_main_arg1 m ρ c),
     (h c _ (mem_uc main_arg2 (by decide))).trans (Wb4_main_arg2 m ρ c)⟩) (run_all m ρ)

end Cert.KernelIdeal.Hand

end
-- ==== Proof.Spec.lean ====
/-
  The mathematics both programs compute, on the extended reals, as ONE function of the three argument arrays.

  The weight w : [16384, 4096] is cut into 128 × 128 blocks; block (a, j) holds the entries
  w[128 a + r, 128 j + k]. Each block has a scale s = max(M, ε) / 448, M the largest magnitude in the block
  (a maximum taken from −∞), and every entry of the block is replaced by
      min(448, max(−448, w / s)) · s.
  The result is Y[p, q, o] = Σ_k X[p, q, k] · Wq[o, k] + b[o], the sum over all 4096 columns.

  The four constants are kept as the bit patterns both programs carry; none of them is ever evaluated.
-/
import Idealize.ShloMosaic.PureOps.Ideal
import Idealize.ShloMosaic.Lib.ValueIdx

noncomputable section

namespace Cert.Spec

open Idealize.ShloMosaic Idealize.ShloMosaic.ValueIdx

/-- The argument and result arrays' shapes. -/
abbrev SX : Shape := ⟨3, ![4, 2048, 4096]⟩
abbrev SW : Shape := ⟨2, ![16384, 4096]⟩
abbrev SB : Shape := ⟨1, ![16384]⟩
abbrev SY : Shape := ⟨3, ![4, 2048, 16384]⟩

/-- −∞, the value every maximum starts from. -/
abbrev negInf : EReal := Ideal.ofBits .f32 0xFF800000#32
/-- The floor ε of a block's maximum (the f32 nearest 1e-12). -/
abbrev epsQ : EReal := Ideal.ofBits .f32 0x2B8CBCCC#32
/-- 448 and −448, the clamp's bounds. -/
abbrev hi : EReal := Ideal.ofBits .f32 0x43E00000#32
abbrev lo : EReal := Ideal.ofBits .f32 0xC3E00000#32

/-- |x| as both programs compute it. -/
def eabs (x : EReal) : EReal := max x (-x)

/-- Row r of block-row a, and column k of block-column j, in the whole weight. -/
def rowOf (a : Fin 128) (r : Fin 128) : Fin 16384 := ⟨a.val * 128 + r.val, by have := a.isLt; have := r.isLt; omega⟩
def colOf (j : Fin 32) (k : Fin 128) : Fin 4096 := ⟨j.val * 128 + k.val, by have := j.isLt; have := k.isLt; omega⟩

/-- The block-row of a row and the block-column of a column. -/
def blockRow (o : Fin 16384) : Fin 128 := ⟨o.val / 128, by have := o.isLt; omega⟩
def blockCol (i : Fin 4096) : Fin 32 := ⟨i.val / 128, by have := i.isLt; omega⟩

/-- The largest magnitude in block (a, j), from −∞: over the block's 128 × 128 entries. -/
def blockMax (w : SW.Idx → EReal) (a : Fin 128) (j : Fin 32) : EReal :=
  (Finset.univ : Finset (Fin 128 × Fin 128)).fold max negInf fun p => eabs (w (ix2 (rowOf a p.1) (colOf j p.2)))

/-- The block's scale. -/
def scale (w : SW.Idx → EReal) (a : Fin 128) (j : Fin 32) : EReal :=
  Ideal.div (max (blockMax w a j) epsQ) hi

/-- One entry of the quantized-and-restored weight. -/
def deq (w : SW.Idx → EReal) (o : Fin 16384) (i : Fin 4096) : EReal :=
  min hi (max lo (Ideal.div (w (ix2 o i)) (scale w (blockRow o) (blockCol i)))) * scale w (blockRow o) (blockCol i)

/-- One entry of the result. -/
def Yc (x : SX.Idx → EReal) (w : SW.Idx → EReal) (b : SB.Idx → EReal) (p : Fin 4) (q : Fin 2048) (o : Fin 16384) : EReal :=
  (∑ k : Fin 4096, x (ix3 p q k) * deq w o k) + b (ix1 o)

/-- The result array. -/
def G (x : SX.Idx → EReal) (w : SW.Idx → EReal) (b : SB.Idx → EReal) : SY.Idx → EReal :=
  fun i => Yc x w b (i 0) (i 1) (i 2)

end Cert.Spec

end
-- ==== Proof.KIVal0.lean ====
/-
  The first pallas_call's output array, read as the specification's de-quantized weight, at the ideal values.

  Each grid point t stages rows [128 t, 128 t + 128) of the weight and stores one pure function of that block.
  Read at an entry (r, c) of the block, that function is the clamp of the entry over the scale of the entry's
  128-column group, times that scale; the scale comes from the largest magnitude over the 128 rows and the
  128 columns of the group, the maximum taken first down the rows and then along the columns. The blocks of the
  128 points tile the array, so the array ends holding the specification's function, entry by entry.
-/
import proofs.«138467_j74577812128642_1_alg».proof.Proof.KIReg0
import proofs.«138467_j74577812128642_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Data.Finset.Fold

set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.Tactic
open Idealize.ShloMosaic.ValueIdx
open Idealize.SL.Sem
open Idealize.ShloMosaic.Pipeline (Dat Cfg Window)

/-! ## A maximum of maxima is the maximum over the pairs -/

/-- The fold of `max` from `b` over one finite type of the folds of `max` from `b` over another is the fold
    over the pairs: both are the least upper bound of `b` and all the values. -/
theorem fold_max_fold_max {α β γ : Type} [Fintype α] [Fintype β] [LinearOrder γ] (b : γ) (f : α → β → γ) :
    (Finset.univ : Finset β).fold max b (fun k => (Finset.univ : Finset α).fold max b fun r => f r k)
      = (Finset.univ : Finset (α × β)).fold max b fun p => f p.1 p.2 := by
  apply le_antisymm
  · refine (Finset.fold_max_le _).mpr ⟨(Finset.le_fold_max _).mpr (Or.inl le_rfl), fun k _ => ?_⟩
    refine (Finset.fold_max_le _).mpr ⟨(Finset.le_fold_max _).mpr (Or.inl le_rfl), fun r _ => ?_⟩
    exact (Finset.le_fold_max _).mpr (Or.inr ⟨(r, k), Finset.mem_univ _, le_rfl⟩)
  · refine (Finset.fold_max_le _).mpr ⟨(Finset.le_fold_max _).mpr (Or.inl le_rfl), fun p _ => ?_⟩
    refine (Finset.le_fold_max _).mpr (Or.inr ⟨p.2, Finset.mem_univ _, ?_⟩)
    exact (Finset.le_fold_max _).mpr (Or.inr ⟨p.1, Finset.mem_univ _, le_rfl⟩)

/-! ## The layout operations of the body, read at an index -/

/-- Column `c` of the block as (group, place in the group). -/
def grp (cc : Fin 4096) : Fin 32 := ⟨cc.val / 128, by have := cc.isLt; omega⟩
def plc (cc : Fin 4096) : Fin 128 := ⟨cc.val % 128, Nat.mod_lt _ (by decide)⟩

/-- The block viewed [128, 32, 128]: entry (r, j, k) is entry (r, 128 j + k). -/
theorem cast3_apply (x : S128x4096.Idx → EReal) (h : S128x4096.ShapeCasts S128x32x128) (r : Fin 128) (j : Fin 32) (k : Fin 128) :
    shapeCast S128x32x128 x h (ix3 r j k) = x (ix2 r (Spec.colOf j k)) := by
  refine shapeCast_apply x h (ix3 r j k) (ix2 r (Spec.colOf j k)) ?_
  rw [Shape.rowMajor_val_two, Shape.rowMajor_val_three]
  show r.val * 4096 + (j.val * 128 + k.val) = (r.val * 32 + j.val) * 128 + k.val
  omega

/-- … and back: entry (r, c) of the [128, 4096] view is entry (r, c / 128, c % 128). -/
theorem cast2_apply (x : S128x32x128.Idx → EReal) (h : S128x32x128.ShapeCasts S128x4096) (r : Fin 128) (cc : Fin 4096) :
    shapeCast S128x4096 x h (ix2 r cc) = x (ix3 r (grp cc) (plc cc)) := by
  refine shapeCast_apply x h (ix2 r cc) (ix3 r (grp cc) (plc cc)) ?_
  rw [Shape.rowMajor_val_two, Shape.rowMajor_val_three]
  show (r.val * 32 + cc.val / 128) * 128 + cc.val % 128 = r.val * 4096 + cc.val
  omega

/-- A [32] vector cast to [32, 1]: entry (j, 0) is entry j. -/
theorem cast_col_apply (x : S32.Idx → EReal) (h : S32.ShapeCasts S32x1) (j : Fin 32) (u : Fin 1) :
    shapeCast S32x1 x h (ix2 j u) = x (ix1 j) := by
  refine shapeCast_apply x h (ix2 j u) (ix1 j) ?_
  rw [Shape.rowMajor_val_one, Shape.rowMajor_val_two]
  show j.val = j.val * 1 + u.val
  omega

/-- A [1, 32, 1] vector broadcast to [128, 32, 128]: entry (r, j, k) is entry (0, j, 0). -/
theorem bcast_apply (x : S1x32x1.Idx → EReal) (h : S1x32x1.Broadcasts S128x32x128) (r : Fin 128) (j : Fin 32) (k : Fin 128) :
    broadcastTo S128x32x128 x h (ix3 r j k) = x (ix3 (0 : Fin 1) j (0 : Fin 1)) := by
  refine broadcastTo_apply x h (ix3 r j k) (ix3 (0 : Fin 1) j (0 : Fin 1)) fun a => ?_
  match a with
  | ⟨0, _⟩ => rfl
  | ⟨1, _⟩ => rfl
  | ⟨2, _⟩ => rfl

/-! ## The two maxima of the body, read at an index -/

/-- The maximum down the 128 rows of a [128, 32, 128] vector, at (j, k). -/
theorem rowmax_apply (v : FVec Ideal S128x32x128 .f32) (h : S128x32x128.Reduces [0] S32x128) (hφ : FKind.Formats .f32)
    (hacc : (0xFF800000#32 : BitVec 32) = FKind.maximumf.neutral .f32 hφ) (j : Fin 32) (k : Fin 128) :
    multiReduction (F := Ideal) .maximumf [0] S32x128 v 0xFF800000#32 h hφ hacc (ix2 j k)
      = (Finset.univ : Finset (Fin 128)).fold max Spec.negInf fun r => v (ix3 r j k) := by
  refine (Ideal.multiReduction_maximumf_single v 0xFF800000#32 h hφ hacc (ix2 j k)).trans ?_
  refine congrArg (Finset.fold max _ · _) (funext fun r => congrArg v (funext fun c => Fin.ext ?_))
  match c with
  | ⟨0, _⟩ => rfl
  | ⟨1, _⟩ => rfl
  | ⟨2, _⟩ => rfl

/-- The maximum along the 128 places of a [32, 128] vector, at j. -/
theorem colmax_apply (v : FVec Ideal S32x128 .f32) (h : S32x128.Reduces [1] S32) (hφ : FKind.Formats .f32)
    (hacc : (0xFF800000#32 : BitVec 32) = FKind.maximumf.neutral .f32 hφ) (j : Fin 32) :
    multiReduction (F := Ideal) .maximumf [1] S32 v 0xFF800000#32 h hφ hacc (ix1 j)
      = (Finset.univ : Finset (Fin 128)).fold max Spec.negInf fun k => v (ix2 j k) := by
  refine (Ideal.multiReduction_maximumf_single v 0xFF800000#32 h hφ hacc (ix1 j)).trans ?_
  refine congrArg (Finset.fold max _ · _) (funext fun k => congrArg v (funext fun c => Fin.ext ?_))
  match c with
  | ⟨0, _⟩ => rfl
  | ⟨1, _⟩ => rfl

/-! ## The body's stored value at an entry of the block -/

/-- The largest magnitude over column group `j` of the block, from −∞, over the 128 rows and the group's 128 places. -/
def blkMax (x0 : S128x4096.Idx → EReal) (j : Fin 32) : EReal :=
  (Finset.univ : Finset (Fin 128 × Fin 128)).fold max Spec.negInf fun p => Spec.eabs (x0 (ix2 p.1 (Spec.colOf j p.2)))

/-- The group's scale. -/
def blkScale (x0 : S128x4096.Idx → EReal) (j : Fin 32) : EReal :=
  Ideal.div (max (blkMax x0 j) Spec.epsQ) Spec.hi

/-- The body's scale vector, one entry per column group: the printed operations from the block to the [1, 32, 1] vector. -/
def scl (x0 : Vec Ideal S128x4096 .f32) : FVec Ideal S1x32x1 .f32 :=
  shapeCast S1x32x1
    (divf
      (maximumf
        (shapeCast S32x1
          (multiReduction .maximumf [1] S32
            (multiReduction .maximumf [0] S32x128 (absf (shapeCast S128x32x128 x0 shapeCasts_S128x4096_S128x32x128))
              0xFF800000#32 reduces_S128x32x128_S32x128 (.inl rfl) rfl)
            0xFF800000#32 reduces_S32x128_S32 (.inl rfl) rfl)
          shapeCasts_S32_S32x1)
        (broadcast S32x1 (Scalar.ofBits .f32 0x2B8CBCCC#32)))
      (broadcast S32x1 (Scalar.ofBits .f32 0x43E00000#32)))
    shapeCasts_S32x1_S1x32x1

/-- The stored value, with the scale vector named: the quotient by the broadcast scale, clamped, times the broadcast scale. -/
theorem pay_eq (x0 : Vec Ideal S128x4096 .f32) :
    k0_pay1 (F := Ideal) x0
      = truncf .bf16
          (shapeCast S128x4096
            (mulf
              (minimumf (broadcast S128x32x128 (Scalar.ofBits .f32 0x43E00000#32))
                (maximumf (broadcast S128x32x128 (Scalar.ofBits .f32 0xC3E00000#32))
                  (divf (shapeCast S128x32x128 x0 shapeCasts_S128x4096_S128x32x128)
                    (broadcastTo S128x32x128 (scl x0) broadcasts_S1x32x1_S128x32x128))))
              (broadcastTo S128x32x128 (scl x0) broadcasts_S1x32x1_S128x32x128))
            shapeCasts_S128x32x128_S128x4096)
          bitsLt_bf16_f32 := rfl

/-- The scale vector at group `j` is the group's scale: the maximum down the rows, then along the places, of the
    magnitudes is the maximum over the pairs. -/
theorem scl_apply (x0 : Vec Ideal S128x4096 .f32) (j : Fin 32) :
    scl x0 (ix3 (0 : Fin 1) j (0 : Fin 1)) = blkScale x0 j := by
  unfold scl
  refine (shapeCast_ab_1ab_apply _ _ (0 : Fin 1) j (0 : Fin 1)).trans ?_
  show Ideal.div (max (shapeCast S32x1 _ shapeCasts_S32_S32x1 (ix2 j (0 : Fin 1))) Spec.epsQ) Spec.hi = _
  unfold blkScale
  refine congrArg (fun m => Ideal.div (max m Spec.epsQ) Spec.hi) ?_
  refine (cast_col_apply _ _ j (0 : Fin 1)).trans ?_
  refine (colmax_apply _ _ _ _ j).trans ?_
  unfold blkMax
  refine Eq.trans ?_ (fold_max_fold_max Spec.negInf fun r k => Spec.eabs (x0 (ix2 r (Spec.colOf j k))))
  refine congrArg (Finset.fold max _ · _) (funext fun k => ?_)
  refine (rowmax_apply _ _ _ _ j k).trans ?_
  refine congrArg (Finset.fold max _ · _) (funext fun r => ?_)
  show Spec.eabs (shapeCast S128x32x128 x0 shapeCasts_S128x4096_S128x32x128 (ix3 r j k)) = _
  exact congrArg Spec.eabs (cast3_apply x0 _ r j k)

/-- Column `c` is place `c % 128` of group `c / 128`. -/
theorem colOf_grp_plc (cc : Fin 4096) : Spec.colOf (grp cc) (plc cc) = cc :=
  Fin.ext (by show cc.val / 128 * 128 + cc.val % 128 = cc.val; omega)

/-- THE STORED VALUE AT (r, c): the entry over its group's scale, clamped to [−448, 448], times the scale. -/
theorem pay_apply (x0 : Vec Ideal S128x4096 .f32) (r : Fin 128) (cc : Fin 4096) :
    k0_pay1 (F := Ideal) x0 (ix2 r cc)
      = min Spec.hi (max Spec.lo (Ideal.div (x0 (ix2 r cc)) (blkScale x0 (grp cc)))) * blkScale x0 (grp cc) := by
  refine (congrFun (pay_eq x0) (ix2 r cc)).trans ?_
  refine (truncf_apply (φ := .f32) (ψ := .bf16) _ bitsLt_bf16_f32 (ix2 r cc)).trans ?_
  refine (cast2_apply _ _ r cc).trans ?_
  show min Spec.hi (max Spec.lo (Ideal.div (shapeCast S128x32x128 x0 shapeCasts_S128x4096_S128x32x128 (ix3 r (grp cc) (plc cc)))
      (broadcastTo S128x32x128 (scl x0) broadcasts_S1x32x1_S128x32x128 (ix3 r (grp cc) (plc cc)))))
    * broadcastTo S128x32x128 (scl x0) broadcasts_S1x32x1_S128x32x128 (ix3 r (grp cc) (plc cc)) = _
  rw [bcast_apply, scl_apply, cast3_apply, colOf_grp_plc]

/-! ## A point's block is the specification's, from the rows the point stages -/

/-- A block that holds rows [128 a, 128 a + 128) of the weight has the weight's scales of block-row `a`. -/
theorem blkScale_eq (W : Spec.SW.Idx → EReal) (a : Fin 128) (x0 : S128x4096.Idx → EReal)
    (hx : ∀ (r : Fin 128) (cc : Fin 4096), x0 (ix2 r cc) = W (ix2 (Spec.rowOf a r) cc)) (j : Fin 32) :
    blkScale x0 j = Spec.scale W a j := by
  unfold blkScale Spec.scale blkMax Spec.blockMax
  exact congrArg (fun m => Ideal.div (max m Spec.epsQ) Spec.hi)
    (congrArg (Finset.fold max _ · _) (funext fun p => congrArg Spec.eabs (hx p.1 (Spec.colOf j p.2))))

/-- The body's stored value on such a block, at (r, c), is the specification's entry (128 a + r, c). -/
theorem point_value (W : Spec.SW.Idx → EReal) (a : Fin 128) (x0 : Vec Ideal S128x4096 .f32)
    (hx : ∀ (r : Fin 128) (cc : Fin 4096), x0 (ix2 r cc) = W (ix2 (Spec.rowOf a r) cc)) (r : Fin 128) (cc : Fin 4096) :
    k0_pay1 (F := Ideal) x0 (ix2 r cc) = Spec.deq W (Spec.rowOf a r) cc := by
  have e1 : Spec.blockRow (Spec.rowOf a r) = a :=
    Fin.ext (by show (a.val * 128 + r.val) / 128 = a.val; have := r.isLt; omega)
  have e2 : Spec.blockCol cc = grp cc := rfl
  rw [pay_apply, blkScale_eq W a x0 hx, hx]
  unfold Spec.deq
  rw [e1, e2]

/-- The same at any index of the block and any entry of the array that sits over it. -/
theorem point_value_at (W : Spec.SW.Idx → EReal) (a : Fin 128) (x0 : Vec Ideal S128x4096 .f32)
    (hx : ∀ (r : Fin 128) (cc : Fin 4096), x0 (ix2 r cc) = W (ix2 (Spec.rowOf a r) cc))
    (y : S128x4096.Idx) (o : Fin 16384) (q : Fin 4096) (ho : o.val = a.val * 128 + (y 0).val) (hq : q.val = (y 1).val) :
    k0_pay1 (F := Ideal) x0 y = Spec.deq W o q := by
  obtain rfl : o = Spec.rowOf a (y 0) := Fin.ext ho
  obtain rfl : q = y 1 := Fin.ext hq
  exact (congrArg (k0_pay1 (F := Ideal) x0) (eq_ix2 y)).trans (point_value W a x0 hx (y 0) (y 1))

/-! ## From the points' blocks to the array -/

section Array

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` both windows sit at block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The de-quantized weight, from the weight as the region finds it. -/
abbrev deqArr (c : Dev nD) : Buf (Elt Ideal) ((c : Thread nD τ).loc main_v0) :=
  fun i => Spec.deq (V c main_arg1) (i 0) (i 1)

/-- The input window's block at point `t` is rows [128 t, 128 t + 128) of the weight. -/
theorem iblk_apply (c : Dev nD) (t : Fin cfg0.N) (x : S128x4096.Idx) (k : S16384x4096.Idx)
    (hk0 : (k 0).val = t.val * 128 + (x 0).val) (hk1 : (k 1).val = (x 1).val) :
    (iblk0 V c 0 t : Vec Ideal S128x4096 .f32) x = (V c main_arg1 : S16384x4096.Idx → EReal) k := by
  obtain ⟨e0, e1, -, -⟩ := idx_facts t
  unfold iblk0
  rw [View.read_apply]
  show V c main_arg1 _ = V c main_arg1 _
  congr 1
  funext a
  apply Fin.ext
  match a with
  | ⟨0, _⟩ => show win0_0.index t (0 : Fin 2) * 128 + 1 * (x 0).val = (k 0).val; rw [e0, hk0]; omega
  | ⟨1, _⟩ => show win0_0.index t (1 : Fin 2) * 4096 + 1 * (x 1).val = (k 1).val; rw [e1, hk1]; omega

/-- WHAT POINT `t` WRITES BACK is block `t` of the de-quantized weight. -/
theorem flushed_eq (c : Dev nD) (t : Fin cfg0.N) :
    (dat0 (F := Ideal) V c).flushed 1 t = ((cfg0.win 1).blk t).view.read (Elt Ideal) (deqArr V c) := by
  have ht : t.val < 128 := Nat.lt_of_lt_of_eq t.isLt N_0
  obtain ⟨-, -, e0, e1⟩ := idx_facts t
  show (cfg0.win 1).cut (grid0.coords t) ((dat0 (F := Ideal) V c).after 1 t) = _
  rw [after0_1]
  unfold out0_1
  rw [View.canon_unit_zero hz]
  simp only [View.ld_unit_zero (S := S128x4096) hz]
  funext y
  show k0_pay1 (F := Ideal) (iblk0 V c 0 t) y
    = Spec.deq (V c main_arg1) ((((cfg0.win 1).blk t).view.emb y) 0) ((((cfg0.win 1).blk t).view.emb y) 1)
  refine point_value_at (V c main_arg1) ⟨t.val, ht⟩ (iblk0 V c 0 t)
    (fun r cc => iblk_apply V c t (ix2 r cc) (ix2 (Spec.rowOf ⟨t.val, ht⟩ r) cc) rfl rfl) y _ _ ?_ ?_
  · show win0_1.index t (0 : Fin 2) * 128 + 1 * (y 0).val = t.val * 128 + (y 0).val
    rw [e0]; omega
  · show win0_1.index t (1 : Fin 2) * 4096 + 1 * (y 1).val = (y 1).val
    rw [e1]; omega

/-- An entry of the array is in point `t`'s block iff each coordinate is in the block's range on its axis. -/
theorem mem_blk (t : Fin cfg0.N) (i : S16384x4096.Idx) :
    i ∈ ((cfg0.win 1).blk t).view.set ↔ ∀ a : Fin 2, win0_1.index t a * S128x4096.size a ≤ (i a).val
      ∧ (i a).val < win0_1.index t a * S128x4096.size a + S128x4096.size a := by
  show i ∈ ((View.whole main_v0).slice (win0_1.rect t)).set ↔ _
  rw [View.set_slice_whole, Rect.mem_set_unit]
  exact Iff.rfl

/-- Every entry (o, q) of the array lies in the block of point o / 128, and every point writes back. -/
theorem covered (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  have hN : cfg0.N = 128 := N_0
  refine ⟨⟨(i 0).val / 128, by rw [hN]; omega⟩, flush0_1 _, ?_⟩
  obtain ⟨-, -, e0, e1⟩ := idx_facts ⟨(i 0).val / 128, by rw [hN]; omega⟩
  rw [mem_blk]
  intro a
  match a with
  | ⟨0, _⟩ =>
    show win0_1.index _ (0 : Fin 2) * 128 ≤ (i 0).val ∧ (i 0).val < win0_1.index _ (0 : Fin 2) * 128 + 128
    rw [e0]; show (i 0).val / 128 * 128 ≤ (i 0).val ∧ (i 0).val < (i 0).val / 128 * 128 + 128; omega
  | ⟨1, _⟩ =>
    show win0_1.index _ (1 : Fin 2) * 4096 ≤ (i 1).val ∧ (i 1).val < win0_1.index _ (1 : Fin 2) * 4096 + 4096
    rw [e1]; omega

/-- THE ARRAY AFTER THE REGION: the specification's de-quantized weight, entry by entry. -/
theorem region0_value (c : Dev nD) :
    (dat0 (F := Ideal) V c).arrAt 1 cfg0.N = fun i => Spec.deq (V c main_arg1) (i 0) (i 1) :=
  (dat0 (F := Ideal) V c).arrAt_eq_of_cover 1 (deqArr V c) (fun t _ => flushed_eq V c t) (covered)

end Array

end Cert.KernelIdeal.Val0

end
-- ==== Proof.KIVal1Stmt.lean ====
/-
  The statement of what the second pallas_call's output holds, entry by entry, from the arrays the region finds
  when it is entered: Y[r, o] = Σ_k X2[r, k] · Wd[o, k] + b[0, o], the sum over all 4096 columns. The arrays are
  named at their literal types, so that the product and the sum are the extended reals'.
-/
import proofs.«138467_j74577812128642_1_alg».proof.Proof.KIReg1
import Idealize.ShloMosaic.Lib.ValueIdx

noncomputable section

namespace Cert.KernelIdeal.Val1

open Cert.KernelIdeal Cert.KernelIdeal.Gen Cert.KernelIdeal.Hand
open Idealize.ShloMosaic Idealize.ShloMosaic.TcCoe Idealize.ShloMosaic.ValueIdx
open Idealize.SL.Sem

/-- The region's three operands and its output after the last point, at their literal types. -/
abbrev xArr (V : (c : Dev nD) → (b : Ref sig .tc) → Buf (Elt Ideal) ((c : Thread nD τ).loc b)) (c : Dev nD) : S8192x4096.Idx → EReal := V c main_v1
abbrev wArr (V : (c : Dev nD) → (b : Ref sig .tc) → Buf (Elt Ideal) ((c : Thread nD τ).loc b)) (c : Dev nD) : S16384x4096.Idx → EReal := V c main_v0
abbrev bArr (V : (c : Dev nD) → (b : Ref sig .tc) → Buf (Elt Ideal) ((c : Thread nD τ).loc b)) (c : Dev nD) : S1x16384.Idx → EReal := V c main_v2
abbrev yArr (V : (c : Dev nD) → (b : Ref sig .tc) → Buf (Elt Ideal) ((c : Thread nD τ).loc b)) (c : Dev nD) : S8192x16384.Idx → EReal := (dat1 (F := Ideal) V c).arrAt 3 cfg1.N

/-- The product plus bias, at entry (r, o). -/
abbrev Region1Value : Prop :=
  ∀ (V : (c : Dev nD) → (b : Ref sig .tc) → Buf (Elt Ideal) ((c : Thread nD τ).loc b)) (c : Dev nD) (r : Fin 8192) (o : Fin 16384),
    yArr V c (ix2 r o) = (∑ k : Fin 4096, xArr V c (ix2 r k) * wArr V c (ix2 o k)) + bArr V c (ix2 (0 : Fin 1) o)

end Cert.KernelIdeal.Val1

end
-- ==== Proof.KIValue.lean ====
/-
  The idealized kernel's result, index by index, as the specification's function of the three arguments.
  The last reshape reads the second pallas_call's output [8192, 16384] at row 2048 p + q; that output is the
  product of the reshaped X (row 2048 p + q of [8192, 4096] is X[p, q, ·]) with the first pallas_call's output
  (the de-quantized weight), plus the bias row (the bias reshaped to [1, 16384]).
-/
import proofs.«138467_j74577812128642_1_alg».proof.Proof.KIRun
import proofs.«138467_j74577812128642_1_alg».proof.Proof.KIVal0
import proofs.«138467_j74577812128642_1_alg».proof.Proof.KIVal1Stmt
import proofs.«138467_j74577812128642_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem Idealize.ShloMosaic.StableHlo

variable (m : (ℓ : Loc nD τ sig) → Buf (Elt Ideal) ℓ) (ρ : Dev nD → PrngReg)

open Cert.KernelIdeal.Val1 (Region1Value xArr wArr bArr yArr)

/-- After the two reshapes: X as [8192, 4096], -/
theorem Wb2_v1 (c : Dev nD) : Wb2 m ρ c (Proc.devRef .tc main_v1) = shapeCast _ (m ((c : Thread nD τ).loc main_arg0)) shapeCasts_S4x2048x4096_S8192x4096 := by
  show StableHlo.after hostOps1 (Wb1 m ρ c) (Proc.devRef .tc main_v1) = _
  after_results
  rw [Wb1_of_ne m ρ c main_arg0 (by decide)]
  rfl

/-- the bias as [1, 16384], -/
theorem Wb2_v2 (c : Dev nD) : Wb2 m ρ c (Proc.devRef .tc main_v2) = shapeCast _ (m ((c : Thread nD τ).loc main_arg2)) shapeCasts_S16384_S1x16384 := by
  show StableHlo.after hostOps1 (Wb1 m ρ c) (Proc.devRef .tc main_v2) = _
  after_results
  rw [Wb1_of_ne m ρ c main_arg2 (by decide)]
  rfl

/-- and the first pallas_call's output untouched: the de-quantized weight. -/
theorem Wb2_v0 (c : Dev nD) : Wb2 m ρ c (Proc.devRef .tc main_v0) = fun i => Cert.Spec.deq (m ((c : Thread nD τ).loc main_arg1)) (i 0) (i 1) := by
  have e : Wb2 m ρ c (Proc.devRef .tc main_v0) = Wb1 m ρ c (Proc.devRef .tc main_v0) := by
    show StableHlo.after hostOps1 (Wb1 m ρ c) (Proc.devRef .tc main_v0) = _
    after_results
  rw [e]
  exact (Wb1_arr m ρ c 1).trans (Cert.KernelIdeal.Val0.region0_value (Vb0 m ρ) c)

/-- The last reshape. -/
theorem Wb4_v4 (c : Dev nD) : Wb4 m ρ c (Proc.devRef .tc main_v4) = shapeCast _ ((dat1 (Vb2 m ρ) c).arrAt 3 cfg1.N) shapeCasts_S8192x16384_S4x2048x16384 := by
  show StableHlo.after hostOps2 (Wb3 m ρ c) (Proc.devRef .tc main_v4) = _
  after_results
  rw [show Wb3 m ρ c (Proc.devRef .tc main_v3) = (dat1 (Vb2 m ρ) c).arrAt 3 cfg1.N from Wb3_arr m ρ c 3]
  rfl

/-- Row 2048 p + q of the reshaped X is X[p, q, ·]. -/
theorem x_at (c : Dev nD) (p : Fin 4) (q : Fin 2048) (k : Fin 4096) (h : p.val * 2048 + q.val < 8192) :
    Vb2 m ρ c main_v1 (ix2 (⟨p.val * 2048 + q.val, h⟩ : Fin 8192) k) = m ((c : Thread nD τ).loc main_arg0) (ix3 p q k) := by
  show Wb2 m ρ c (Proc.devRef .tc main_v1) _ = _
  rw [Wb2_v1]
  exact shapeCast_apply _ shapeCasts_S4x2048x4096_S8192x4096 _ (ix3 p q k) (by
    rewrite [Shape.rowMajor_val_three, Shape.rowMajor_val_two]; rfl)

theorem b_at (c : Dev nD) (o : Fin 16384) :
    Vb2 m ρ c main_v2 (ix2 (0 : Fin 1) o) = m ((c : Thread nD τ).loc main_arg2) (ix1 o) := by
  show Wb2 m ρ c (Proc.devRef .tc main_v2) _ = _
  rw [Wb2_v2]
  exact shapeCast_apply _ shapeCasts_S16384_S1x16384 _ (ix1 o) (by
    rewrite [Shape.rowMajor_val_one, Shape.rowMajor_val_two]; show o.val = 0 * 16384 + o.val; omega)

theorem w_at (c : Dev nD) (o : Fin 16384) (k : Fin 4096) :
    Vb2 m ρ c main_v0 (ix2 o k) = Cert.Spec.deq (m ((c : Thread nD τ).loc main_arg1)) o k := by
  exact congrFun (Wb2_v0 m ρ c) (ix2 o k)

/-- THE RESULT at an index. -/
theorem value_at (h1 : Region1Value) (c : Dev nD) (p : Fin 4) (q : Fin 2048) (o : Fin 16384) :
    Wb4 m ρ c (Proc.devRef .tc main_v4) (ix3 p q o)
      = Cert.Spec.Yc (m ((c : Thread nD τ).loc main_arg0)) (m ((c : Thread nD τ).loc main_arg1)) (m ((c : Thread nD τ).loc main_arg2)) p q o := by
  have hr : p.val * 2048 + q.val < 8192 := by have := p.isLt; have := q.isLt; omega
  rw [Wb4_v4]
  refine (shapeCast_apply _ shapeCasts_S8192x16384_S4x2048x16384 (ix3 p q o) (ix2 (⟨p.val * 2048 + q.val, hr⟩ : Fin 8192) o) (by
    rewrite [Shape.rowMajor_val_two, Shape.rowMajor_val_three]; rfl)).trans ?_
  refine (h1 (Vb2 m ρ) c ⟨p.val * 2048 + q.val, hr⟩ o).trans ?_
  unfold Cert.Spec.Yc
  refine congrArg₂ (· + ·) (Finset.sum_congr rfl fun k _ => ?_) (b_at m ρ c o)
  exact congrArg₂ (· * ·) (x_at m ρ c p q k hr) (w_at m ρ c o k)

/-- THE RESULT as an array. -/
theorem value_v4 (h1 : Region1Value) (c : Dev nD) :
    Wb4 m ρ c (Proc.devRef .tc main_v4)
      = Cert.Spec.G (m ((c : Thread nD τ).loc main_arg0)) (m ((c : Thread nD τ).loc main_arg1)) (m ((c : Thread nD τ).loc main_arg2)) := by
  funext i
  obtain ⟨p, q, o, rfl⟩ : ∃ (p : Fin 4) (q : Fin 2048) (o : Fin 16384), i = ix3 p q o := ⟨i 0, i 1, i 2, eq_ix3 i⟩
  exact value_at m ρ h1 c p q o

end Cert.KernelIdeal.Val

end
-- ==== Proof.Algebra.lean ====
import Mathlib.Algebra.BigOperators.Fin
import Mathlib.Data.Fintype.BigOperators
import Mathlib.Logic.Equiv.Fin.Basic

/-!
# Summing 4096 terms in four blocks of 1024

A sum of 4096 terms in a commutative additive monoid equals the sum, over four blocks, of the
1024 terms of each block; and adding the four block sums one after another, starting from zero,
gives the sum of the four.  Nothing here uses cancellation or finiteness of the values, so the
statements hold in the extended reals as well.
-/

open scoped BigOperators

namespace Cert.Algebra

/-- The index `kb * 1024 + kk` enumerates `Fin 4096` exactly once as `kb` runs over the four blocks
and `kk` over the 1024 places of a block: it is the bijection `Fin 4 × Fin 1024 ≃ Fin 4096`. -/
theorem sum_blocks4 {M : Type*} [AddCommMonoid M] (f : Fin 4096 → M) :
    ∑ k : Fin 4096, f k
      = ∑ kb : Fin 4, ∑ kk : Fin 1024,
          f ⟨kb.val * 1024 + kk.val, by have := kb.isLt; have := kk.isLt; omega⟩ := by
  -- the double sum is a sum over pairs
  rw [← Fintype.sum_prod_type'
    (f := fun (kb : Fin 4) (kk : Fin 1024) =>
      f ⟨kb.val * 1024 + kk.val, by have := kb.isLt; have := kk.isLt; omega⟩)]
  -- and the pairs correspond to the 4096 indices, the pair (kb, kk) to kk + 1024 * kb
  symm
  refine Fintype.sum_equiv (finProdFinEquiv : Fin 4 × Fin 1024 ≃ Fin 4096) _ _ ?_
  rintro ⟨kb, kk⟩
  refine congrArg f (Fin.ext ?_)
  show kb.val * 1024 + kk.val = kk.val + 1024 * kb.val
  omega

/-- Adding four terms one after another, from zero, is their sum. -/
theorem acc4 {M : Type*} [AddCommMonoid M] (g : Fin 4 → M) :
    (((0 + g 0) + g 1) + g 2) + g 3 = ∑ kb : Fin 4, g kb := by
  rw [Fin.sum_univ_four, zero_add]

/-- The blocks of index at most `k + 1` are those of index at most `k` together with block
`k + 1`, which is not among them. -/
theorem filter_le_succ (k : ℕ) (hk : k + 1 < 4) :
    Finset.univ.filter (fun kb : Fin 4 => kb.val ≤ k + 1)
      = insert (⟨k + 1, hk⟩ : Fin 4) (Finset.univ.filter (fun kb : Fin 4 => kb.val ≤ k)) := by
  ext kb
  simp only [Finset.mem_filter, Finset.mem_univ, true_and, Finset.mem_insert, Fin.ext_iff]
  omega

/-- the accumulator after the blocks 0..k (k < 4), as a partial sum -/
theorem partial_succ {M : Type*} [AddCommMonoid M] (g : Fin 4 → M) (k : ℕ) (hk : k + 1 < 4) :
    (∑ kb ∈ Finset.univ.filter (fun kb : Fin 4 => kb.val ≤ k), g kb) + g ⟨k + 1, hk⟩
      = ∑ kb ∈ Finset.univ.filter (fun kb : Fin 4 => kb.val ≤ k + 1), g kb := by
  have hnot : (⟨k + 1, hk⟩ : Fin 4) ∉ Finset.univ.filter (fun kb : Fin 4 => kb.val ≤ k) := by
    simp only [Finset.mem_filter, Finset.mem_univ, true_and]
    omega
  rw [filter_le_succ k hk, Finset.sum_insert hnot, add_comm]

/-- Before any further block, the partial sum is the first block alone. -/
theorem partial_zero {M : Type*} [AddCommMonoid M] (g : Fin 4 → M) :
    0 + g 0 = ∑ kb ∈ Finset.univ.filter (fun kb : Fin 4 => kb.val ≤ 0), g kb := by
  have hset : Finset.univ.filter (fun kb : Fin 4 => kb.val ≤ 0) = {(0 : Fin 4)} := by
    ext kb
    simp only [Finset.mem_filter, Finset.mem_univ, true_and, Finset.mem_singleton, Fin.ext_iff,
      Fin.val_zero]
    omega
  rw [hset, Finset.sum_singleton, zero_add]

/-- Every block has index at most 3, so the last partial sum is the whole sum. -/
theorem partial_last {M : Type*} [AddCommMonoid M] (g : Fin 4 → M) :
    ∑ kb ∈ Finset.univ.filter (fun kb : Fin 4 => kb.val ≤ 3), g kb = ∑ kb : Fin 4, g kb := by
  have hset : Finset.univ.filter (fun kb : Fin 4 => kb.val ≤ 3) = Finset.univ := by
    ext kb
    simp only [Finset.mem_filter, Finset.mem_univ, true_and, iff_true]
    have := kb.isLt
    omega
  rw [hset]

end Cert.Algebra
-- ==== Proof.KIVal1.lean ====
/-
  The second pallas_call (the tiled matrix product), read at the ideal values: after all 512 grid points its
  output array holds, entry by entry, the product of the activations with the transposed weight plus the bias.

  Point t = (i, j, k) stages rows [512 i, 512 i + 512) and columns [1024 k, 1024 k + 1024) of the activations,
  rows [2048 j, 2048 j + 2048) and the same columns of the weight, and columns [2048 j, 2048 j + 2048) of the bias.
  The accumulator, cleared at k = 0, gains at every point the product of the two staged blocks, so after point
  (i, j, k) its entry (r, cc) is the sum, over the column blocks 0..k, of the 1024 products of a block; at k = 3
  the four block sums are the whole sum over the 4096 columns, and that sum plus the bias entry is stored into
  block (i, j) of the output. Those blocks tile the output array.
-/
import proofs.«138467_j74577812128642_1_alg».proof.Proof.KIVal1Stmt
import proofs.«138467_j74577812128642_1_alg».proof.Proof.Algebra
import Idealize.ShloMosaic.Lib.ValueIdx
import Idealize.ShloMosaic.Lib.ValueLayout
import Idealize.ShloMosaic.Lib.Pipeline.Value
import Idealize.ShloMosaic.PureOps.Ideal.Laws
import Mathlib.Data.EReal.Basic

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## What each control case leaves, as the body's arithmetic on the staged blocks -/

section Pieces

variable {F : FTy → Type} [FloatOps F]

theorem hz : (![0, 0] : Fin 2 → Nat) = fun _ => 0 := funext fun a => by fin_cases a <;> rfl

/-- At a point with k = 1 or 2 the accumulator, holding `xs0`, gains the product of the two staged blocks. -/
theorem acc_B (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : ¬cond1_1 i)
    (x0 : Vec F S512x1024 .f32) (x1 : Vec F S2048x1024 .bf16) (x2 : Vec F S1x2048 .f32) (xs0 : Vec F S512x2048 .f32) :
    sout1_B_0 c i arg3 harg3 arg4 harg4 arg5 harg5 arg6 harg6 arg7 harg7 hc0 hc1 x0 x1 x2 xs0 = k1_pay2 x0 xs0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero (S := S512x2048) hz]
  simp only [View.readAt_eq_ld, harg3.read_unread, harg4.read_unread, harg7.read_unread, View.ld_unit_zero (S := S512x1024) hz, View.ld_unit_zero (S := S2048x1024) hz, View.ld_unit_zero (S := S512x2048) hz]

/-- At a point with k = 0 the accumulator is cleared first, so it ends at the product alone, added to the zero block. -/
theorem acc_A (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond1_0 i) (hc1 : ¬cond1_1 i)
    (x0 : Vec F S512x1024 .f32) (x1 : Vec F S2048x1024 .bf16) (x2 : Vec F S1x2048 .f32) :
    sout1_A_0 c i arg3 harg3 arg4 harg4 arg5 harg5 arg6 harg6 arg7 harg7 hc0 hc1 x0 x1 x2 = k1_pay2 x0 (k1_pay1 (F := F)) x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S512x2048) hz, View.readCov_unit_zero (S := S512x2048) _ hz]
  simp only [View.readAt_eq_ld, harg3.read_unread, harg4.read_unread, View.ld_unit_zero (S := S512x1024) hz, View.ld_unit_zero (S := S2048x1024) hz]

/-- At a point with k = 3 the accumulator gains the last product as at the other points … -/
theorem acc_C (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x1024 .f32) (x1 : Vec F S2048x1024 .bf16) (x2 : Vec F S1x2048 .f32) (xs0 : Vec F S512x2048 .f32) :
    sout1_C_0 c i arg3 harg3 arg4 harg4 arg5 harg5 arg6 harg6 arg7 harg7 hc0 hc1 x0 x1 x2 xs0 = k1_pay2 x0 xs0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero (S := S512x2048) hz]
  simp only [View.readAt_eq_ld, harg3.read_unread, harg4.read_unread, harg7.read_unread, View.ld_unit_zero (S := S512x1024) hz, View.ld_unit_zero (S := S2048x1024) hz, View.ld_unit_zero (S := S512x2048) hz]

/-- … and the output block is stored: the accumulator just written, plus the bias row on every row. -/
theorem out_C (c : Dev nD) (i : grid1.Coords) (arg3 : Memref sig .tc .vmem S512x1024 .f32) (harg3 : arg3.IsWhole) (arg4 : Memref sig .tc .vmem S2048x1024 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond1_0 i) (hc1 : cond1_1 i)
    (x0 : Vec F S512x1024 .f32) (x1 : Vec F S2048x1024 .bf16) (x2 : Vec F S1x2048 .f32) (xs0 : Vec F S512x2048 .f32) :
    out1_C_3 c i arg3 harg3 arg4 harg4 arg5 harg5 arg6 harg6 arg7 harg7 hc0 hc1 x0 x1 x2 xs0 = k1_pay3 (k1_pay2 x0 xs0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero (S := S512x2048) hz]
  simp only [View.readAt_eq_ld, harg3.read_unread, harg4.read_unread, harg5.read_unread, harg7.read_unread, View.readCov_unit_zero (S := S512x2048) _ hz, View.ld_unit_zero (S := S512x1024) hz, View.ld_unit_zero (S := S2048x1024) hz, View.ld_unit_zero (S := S512x2048) hz, View.ld_unit_zero (S := S1x2048) hz]

end Pieces

/-! ## The body's arithmetic, read at an entry, at the ideal values -/

section Payloads

/-- The zero block is zero everywhere. -/
theorem pay1_apply (r : Fin 512) (cc : Fin 2048) : (k1_pay1 (F := Ideal)) (ix2 r cc) = 0 := by
  unfold k1_pay1
  refine (congrFun (shapeCast_self _ _) (ix2 r cc)).trans ?_
  exact Ideal.ofBits_zero_f32

/-- The product's left operand is read at the output's row and the contraction's column, … -/
theorem lhs_0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem lhs_1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
/-- … the right operand at the output's column (a row of the weight block) and the contraction's column. -/
theorem rhs_0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem rhs_1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- The matrix unit's product into the zero block, at entry (r, cc): the sum over the block's 1024 columns of the
    left block's row r times the right block's row cc. -/
theorem matmul_zero_apply (l : FVec Ideal S512x1024 .bf16) (w : FVec Ideal S2048x1024 .bf16) (r : Fin 512) (cc : Fin 2048) :
    matmul dot_S512x1024_S2048x1024_S512x2048_1_1_0_0_n_n none l w (constant (F := Ideal) S512x2048 .f32 0x00000000#32) (ix2 r cc)
      = ∑ kk : Fin 1024, l (ix2 r kk) * w (ix2 cc kk) := by
  simp only [matmul]
  rw [Ideal.matmul_constant_zero_apply, ← Equiv.sum_comp (ValueIdx.contrEquiv1 dot_S512x1024_S2048x1024_S512x2048_1_1_0_0_n_n 1024 rfl rfl).symm]
  refine Finset.sum_congr rfl fun k _ => ?_
  have hk := ValueIdx.contrEquiv1_symm_val dot_S512x1024_S2048x1024_S512x2048_1_1_0_0_n_n 1024 rfl rfl k
  have el : dot_S512x1024_S2048x1024_S512x2048_1_1_0_0_n_n.lhsIdx (ix2 r cc) ((ValueIdx.contrEquiv1 dot_S512x1024_S2048x1024_S512x2048_1_1_0_0_n_n 1024 rfl rfl).symm k) = ix2 r k := funext fun a => Fin.ext (by
    match a with
    | ⟨0, _⟩ => exact lhs_0 _ _
    | ⟨1, _⟩ => exact (lhs_1 _ _).trans hk)
  have er : dot_S512x1024_S2048x1024_S512x2048_1_1_0_0_n_n.rhsIdx (ix2 r cc) ((ValueIdx.contrEquiv1 dot_S512x1024_S2048x1024_S512x2048_1_1_0_0_n_n 1024 rfl rfl).symm k) = ix2 cc k := funext fun a => Fin.ext (by
    match a with
    | ⟨0, _⟩ => exact rhs_0 _ _
    | ⟨1, _⟩ => exact (rhs_1 _ _).trans hk)
  rw [el, er]

/-- The accumulator's update at entry (r, cc): what it held plus the product's entry. -/
theorem pay2_apply (x : Vec Ideal S512x1024 .f32) (acc : Vec Ideal S512x2048 .f32) (w : Vec Ideal S2048x1024 .bf16) (r : Fin 512) (cc : Fin 2048) :
    k1_pay2 (F := Ideal) x acc w (ix2 r cc) = acc (ix2 r cc) + ∑ kk : Fin 1024, x (ix2 r kk) * w (ix2 cc kk) := by
  unfold k1_pay2
  refine (congrFun (shapeCast_self _ _) (ix2 r cc)).trans ?_
  refine (addf_apply _ _ (ix2 r cc)).trans ?_
  refine congrArg (acc (ix2 r cc) + ·) ?_
  refine (matmul_zero_apply _ _ r cc).trans ?_
  refine Finset.sum_congr rfl fun kk _ => ?_
  rw [shapeCast_self, shapeCast_self]
  rfl

/-- The output block's entry (r, cc): the accumulator's entry plus the bias row's entry cc. -/
theorem pay3_apply (a : Vec Ideal S512x2048 .f32) (b : Vec Ideal S1x2048 .f32) (r : Fin 512) (cc : Fin 2048) :
    k1_pay3 (F := Ideal) a b (ix2 r cc) = a (ix2 r cc) + b (ix2 (0 : Fin 1) cc) := by
  unfold k1_pay3
  refine (addf_apply _ _ (ix2 r cc)).trans ?_
  refine congrArg (a (ix2 r cc) + ·) ?_
  refine (broadcastTo_apply _ _ (ix2 r cc) (ix2 (0 : Fin 1) cc) ?_).trans ?_
  · intro a
    match a with
    | ⟨0, _⟩ => show 0 = if (1 : Nat) = 1 then 0 else _; rw [if_pos rfl]
    | ⟨1, _⟩ => show cc.val = if (2048 : Nat) = 1 then 0 else cc.val; rw [if_neg (by decide)]
  · exact congrFun (shapeCast_self _ _) _

end Payloads

/-! ## Where a staged block sits in its array -/

/-- Row `r` of row block `bi` of the activations; row `cc` of row block `bj` of the weight (a column of the output);
    column `kk` of column block `kb` of either. -/
def rowX (bi : Fin 16) (r : Fin 512) : Fin 8192 := ⟨bi.val * 512 + r.val, by have := bi.isLt; have := r.isLt; omega⟩
def rowW (bj : Fin 8) (cc : Fin 2048) : Fin 16384 := ⟨bj.val * 2048 + cc.val, by have := bj.isLt; have := cc.isLt; omega⟩
def colK (kb : Fin 4) (kk : Fin 1024) : Fin 4096 := ⟨kb.val * 1024 + kk.val, by have := kb.isLt; have := kk.isLt; omega⟩

/-- The grid point's three coordinates: t = 32 i + 4 j + k. -/
def pI (t : Fin cfg1.N) : Fin 16 := ⟨t.val / 32, by have := t.isLt; have hN : cfg1.N = 512 := N_1; omega⟩
def pJ (t : Fin cfg1.N) : Fin 8 := ⟨(t.val / 4) % 8, by omega⟩
def pK (t : Fin cfg1.N) : Fin 4 := ⟨t.val % 4, by omega⟩

/-- One column block's share of the entry (p, o) of the product: the 1024 products of that block. -/
def blockSum (X : S8192x4096.Idx → EReal) (W : S16384x4096.Idx → EReal) (p : Fin 8192) (o : Fin 16384) (kb : Fin 4) : EReal :=
  ∑ kk : Fin 1024, X (ix2 p (colK kb kk)) * W (ix2 o (colK kb kk))

/-- The four shares make the whole sum over the 4096 columns. -/
theorem sum_blockSum (X : S8192x4096.Idx → EReal) (W : S16384x4096.Idx → EReal) (p : Fin 8192) (o : Fin 16384) :
    ∑ kb : Fin 4, blockSum X W p o kb = ∑ k : Fin 4096, X (ix2 p k) * W (ix2 o k) :=
  (Cert.Algebra.sum_blocks4 (fun k : Fin 4096 => X (ix2 p k) * W (ix2 o k))).symm

/-- The windows' block indices as functions of the point, decided once over the grid. -/
theorem idx_facts : ∀ t : Fin cfg1.N,
    win1_0.index t (0 : Fin 2) = t.val / 32 ∧ win1_0.index t (1 : Fin 2) = t.val % 4
    ∧ win1_1.index t (0 : Fin 2) = (t.val / 4) % 8 ∧ win1_1.index t (1 : Fin 2) = t.val % 4
    ∧ win1_2.index t (0 : Fin 2) = 0 ∧ win1_2.index t (1 : Fin 2) = (t.val / 4) % 8
    ∧ win1_3.index t (0 : Fin 2) = t.val / 32 ∧ win1_3.index t (1 : Fin 2) = (t.val / 4) % 8 :=
  (by decide +kernel : ∀ t : Fin grid1.N, _)

section Region

variable (V : (c : Dev nD) → (b : Ref sig .tc) → Buf (Elt Ideal) ((c : Thread nD τ).loc b))

/-- The blocks of the three operands staged at point `t`, at their literal types. -/
abbrev xblk (c : Dev nD) (t : Fin cfg1.N) : Vec Ideal S512x1024 .f32 := iblk1 V c 0 t
abbrev wblk (c : Dev nD) (t : Fin cfg1.N) : Vec Ideal S2048x1024 .bf16 := iblk1 V c 1 t
abbrev bblk (c : Dev nD) (t : Fin cfg1.N) : Vec Ideal S1x2048 .f32 := iblk1 V c 2 t

/-- The activations' block at point (i, j, k) holds rows 512 i + r and columns 1024 k + kk. -/
theorem xblk_apply (c : Dev nD) (t : Fin cfg1.N) (r : Fin 512) (kk : Fin 1024) :
    xblk V c t (ix2 r kk) = xArr V c (ix2 (rowX (pI t) r) (colK (pK t) kk)) := by
  obtain ⟨e0, e1, -⟩ := idx_facts t
  show V c main_v1 (((cfg1.win 0).blk t).view.emb (ix2 r kk)) = V c main_v1 (ix2 (rowX (pI t) r) (colK (pK t) kk))
  refine congrArg (V c main_v1) (funext fun a => Fin.ext ?_)
  match a with
  | ⟨0, _⟩ => show win1_0.index t (0 : Fin 2) * 512 + 1 * r.val = t.val / 32 * 512 + r.val; rw [e0]; omega
  | ⟨1, _⟩ => show win1_0.index t (1 : Fin 2) * 1024 + 1 * kk.val = t.val % 4 * 1024 + kk.val; rw [e1]; omega

/-- The weight's block there holds rows 2048 j + cc and the same columns. -/
theorem wblk_apply (c : Dev nD) (t : Fin cfg1.N) (cc : Fin 2048) (kk : Fin 1024) :
    wblk V c t (ix2 cc kk) = wArr V c (ix2 (rowW (pJ t) cc) (colK (pK t) kk)) := by
  obtain ⟨-, -, e0, e1, -⟩ := idx_facts t
  show V c main_v0 (((cfg1.win 1).blk t).view.emb (ix2 cc kk)) = V c main_v0 (ix2 (rowW (pJ t) cc) (colK (pK t) kk))
  refine congrArg (V c main_v0) (funext fun a => Fin.ext ?_)
  match a with
  | ⟨0, _⟩ => show win1_1.index t (0 : Fin 2) * 2048 + 1 * cc.val = t.val / 4 % 8 * 2048 + cc.val; rw [e0]; omega
  | ⟨1, _⟩ => show win1_1.index t (1 : Fin 2) * 1024 + 1 * kk.val = t.val % 4 * 1024 + kk.val; rw [e1]; omega

/-- The bias block there holds columns 2048 j + cc of the one row. -/
theorem bblk_apply (c : Dev nD) (t : Fin cfg1.N) (cc : Fin 2048) :
    bblk V c t (ix2 (0 : Fin 1) cc) = bArr V c (ix2 (0 : Fin 1) (rowW (pJ t) cc)) := by
  obtain ⟨-, -, -, -, e0, e1, -⟩ := idx_facts t
  show V c main_v2 (((cfg1.win 2).blk t).view.emb (ix2 (0 : Fin 1) cc)) = V c main_v2 (ix2 (0 : Fin 1) (rowW (pJ t) cc))
  refine congrArg (V c main_v2) (funext fun a => Fin.ext ?_)
  match a with
  | ⟨0, _⟩ => show win1_2.index t (0 : Fin 2) * 1 + 1 * 0 = 0; rw [e0]
  | ⟨1, _⟩ => show win1_2.index t (1 : Fin 2) * 2048 + 1 * cc.val = t.val / 4 % 8 * 2048 + cc.val; rw [e1]; omega

/-- So the product of the two staged blocks, at entry (r, cc), is column block k's share of the product's entry. -/
theorem prod_blk (c : Dev nD) (t : Fin cfg1.N) (r : Fin 512) (cc : Fin 2048) :
    ∑ kk : Fin 1024, xblk V c t (ix2 r kk) * wblk V c t (ix2 cc kk)
      = blockSum (xArr V c) (wArr V c) (rowX (pI t) r) (rowW (pJ t) cc) (pK t) :=
  Finset.sum_congr rfl fun kk _ => by rw [xblk_apply, wblk_apply]

/-! ## The accumulator after each point -/

/-- At k = 0 the accumulator restarts: zero plus column block 0's share. -/
theorem acc_at_A (c : Dev nD) (t : Fin cfg1.N) (h0 : t.val % 4 = 0) (h1 : ¬t.val % 4 = 3) (r : Fin 512) (cc : Fin 2048) :
    (outsAt1 V c t.val t.isLt).2 (ix2 r cc) = 0 + blockSum (xArr V c) (wArr V c) (rowX (pI t) r) (rowW (pJ t) cc) (pK t) := by
  rw [outsAt1_A V c t h0 h1]; dsimp only
  refine (congrFun (acc_A (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (xblk V c t) (wblk V c t) (bblk V c t)) (ix2 r cc)).trans ?_
  refine (pay2_apply (xblk V c t) (k1_pay1 (F := Ideal)) (wblk V c t) r cc).trans ?_
  exact congrArg₂ (· + ·) (pay1_apply r cc) (prod_blk V c t r cc)

/-- At k = 1, 2 it gains column block k's share over what the point before left. -/
theorem acc_at_B (c : Dev nD) (t : Fin cfg1.N) (h0 : ¬t.val % 4 = 0) (h1 : ¬t.val % 4 = 3) (r : Fin 512) (cc : Fin 2048) :
    (outsAt1 V c t.val t.isLt).2 (ix2 r cc) = (outsAt1 V c (t.val - 1) (Nat.lt_of_le_of_lt (Nat.sub_le _ _) t.isLt)).2 (ix2 r cc) + blockSum (xArr V c) (wArr V c) (rowX (pI t) r) (rowW (pJ t) cc) (pK t) := by
  rw [outsAt1_B V c t h0 h1]; dsimp only
  refine (congrFun (acc_B (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (xblk V c t) (wblk V c t) (bblk V c t) (outsAt1 V c (t.val - 1) (Nat.lt_of_le_of_lt (Nat.sub_le _ _) t.isLt)).2) (ix2 r cc)).trans ?_
  refine (pay2_apply (xblk V c t) (outsAt1 V c (t.val - 1) (Nat.lt_of_le_of_lt (Nat.sub_le _ _) t.isLt)).2 (wblk V c t) r cc).trans ?_
  exact congrArg ((outsAt1 V c (t.val - 1) (Nat.lt_of_le_of_lt (Nat.sub_le _ _) t.isLt)).2 (ix2 r cc) + ·) (prod_blk V c t r cc)

/-- At k = 3 likewise, … -/
theorem acc_at_C (c : Dev nD) (t : Fin cfg1.N) (h0 : ¬t.val % 4 = 0) (h1 : t.val % 4 = 3) (r : Fin 512) (cc : Fin 2048) :
    (outsAt1 V c t.val t.isLt).2 (ix2 r cc) = (outsAt1 V c (t.val - 1) (Nat.lt_of_le_of_lt (Nat.sub_le _ _) t.isLt)).2 (ix2 r cc) + blockSum (xArr V c) (wArr V c) (rowX (pI t) r) (rowW (pJ t) cc) (pK t) := by
  rw [outsAt1_C V c t h0 h1]; dsimp only
  refine (congrFun (acc_C (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (xblk V c t) (wblk V c t) (bblk V c t) (outsAt1 V c (t.val - 1) (Nat.lt_of_le_of_lt (Nat.sub_le _ _) t.isLt)).2) (ix2 r cc)).trans ?_
  refine (pay2_apply (xblk V c t) (outsAt1 V c (t.val - 1) (Nat.lt_of_le_of_lt (Nat.sub_le _ _) t.isLt)).2 (wblk V c t) r cc).trans ?_
  exact congrArg ((outsAt1 V c (t.val - 1) (Nat.lt_of_le_of_lt (Nat.sub_le _ _) t.isLt)).2 (ix2 r cc) + ·) (prod_blk V c t r cc)

/-- … and the output block's entry is the accumulator's new entry plus the bias entry of the output's column. -/
theorem out_at_C (c : Dev nD) (t : Fin cfg1.N) (h0 : ¬t.val % 4 = 0) (h1 : t.val % 4 = 3) (r : Fin 512) (cc : Fin 2048) :
    (outsAt1 V c t.val t.isLt).1 (ix2 r cc)
      = (outsAt1 V c t.val t.isLt).2 (ix2 r cc) + bArr V c (ix2 (0 : Fin 1) (rowW (pJ t) cc)) := by
  rw [outsAt1_C V c t h0 h1]; dsimp only
  refine (congrFun (out_C (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (xblk V c t) (wblk V c t) (bblk V c t) (outsAt1 V c (t.val - 1) (Nat.lt_of_le_of_lt (Nat.sub_le _ _) t.isLt)).2) (ix2 r cc)).trans ?_
  refine (pay3_apply (k1_pay2 (F := Ideal) (xblk V c t) (outsAt1 V c (t.val - 1) (Nat.lt_of_le_of_lt (Nat.sub_le _ _) t.isLt)).2 (wblk V c t)) (bblk V c t) r cc).trans ?_
  exact congrArg₂ (· + ·) (congrFun (acc_C (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (xblk V c t) (wblk V c t) (bblk V c t) (outsAt1 V c (t.val - 1) (Nat.lt_of_le_of_lt (Nat.sub_le _ _) t.isLt)).2) (ix2 r cc)).symm (bblk_apply V c t cc)

theorem acc_at_step (c : Dev nD) (t : Fin cfg1.N) (h0 : ¬t.val % 4 = 0) (r : Fin 512) (cc : Fin 2048) :
    (outsAt1 V c t.val t.isLt).2 (ix2 r cc) = (outsAt1 V c (t.val - 1) (Nat.lt_of_le_of_lt (Nat.sub_le _ _) t.isLt)).2 (ix2 r cc) + blockSum (xArr V c) (wArr V c) (rowX (pI t) r) (rowW (pJ t) cc) (pK t) := by
  by_cases h1 : t.val % 4 = 3
  · exact acc_at_C V c t h0 h1 r cc
  · exact acc_at_B V c t h0 h1 r cc

/-- After point (i, j, k) the accumulator's entry (r, cc) is the sum of the shares of the column blocks 0..k of the
    product's entry (512 i + r, 2048 j + cc): by induction along the points, which keep i and j while k grows. -/
theorem acc_inv (c : Dev nD) : ∀ (n : ℕ) (t : Fin cfg1.N), t.val = n → ∀ (r : Fin 512) (cc : Fin 2048),
    (outsAt1 V c t.val t.isLt).2 (ix2 r cc)
      = ∑ kb ∈ Finset.univ.filter (fun kb : Fin 4 => kb.val ≤ t.val % 4), blockSum (xArr V c) (wArr V c) (rowX (pI t) r) (rowW (pJ t) cc) kb := by
  intro n
  induction n with
  | zero =>
    intro t ht r cc
    have h0 : t.val % 4 = 0 := by omega
    rw [acc_at_A V c t h0 (by omega) r cc, h0, show pK t = 0 from Fin.ext h0]
    exact Cert.Algebra.partial_zero (fun kb => blockSum (xArr V c) (wArr V c) (rowX (pI t) r) (rowW (pJ t) cc) kb)
  | succ n ih =>
    intro t ht r cc
    by_cases h0 : t.val % 4 = 0
    · rw [acc_at_A V c t h0 (by omega) r cc, h0, show pK t = 0 from Fin.ext h0]
      exact Cert.Algebra.partial_zero (fun kb => blockSum (xArr V c) (wArr V c) (rowX (pI t) r) (rowW (pJ t) cc) kb)
    · have hlt : t.val - 1 < cfg1.N := Nat.lt_of_le_of_lt (Nat.sub_le _ _) t.isLt
      have ih' := ih ⟨t.val - 1, hlt⟩ (by show t.val - 1 = n; omega) r cc
      have eI : pI ⟨t.val - 1, hlt⟩ = pI t := Fin.ext (by show (t.val - 1) / 32 = t.val / 32; omega)
      have eJ : pJ ⟨t.val - 1, hlt⟩ = pJ t := Fin.ext (by show (t.val - 1) / 4 % 8 = t.val / 4 % 8; omega)
      obtain ⟨k, hk1, hk0⟩ : ∃ k, t.val % 4 = k + 1 ∧ (t.val - 1) % 4 = k := ⟨t.val % 4 - 1, by omega, by omega⟩
      have hk : k + 1 < 4 := by omega
      dsimp only at ih'
      rw [eI, eJ, hk0] at ih'
      rw [acc_at_step V c t h0 r cc, show pK t = ⟨k + 1, hk⟩ from Fin.ext hk1, hk1, ih']
      exact Cert.Algebra.partial_succ (fun kb => blockSum (xArr V c) (wArr V c) (rowX (pI t) r) (rowW (pJ t) cc) kb) k hk

/-! ## The output array -/

/-- What the output array ends holding: at entry (p, o) the product's entry plus the bias entry o. -/
def yFun (c : Dev nD) : S8192x16384.Idx → EReal := fun i =>
  (∑ k : Fin 4096, xArr V c (ix2 (⟨(i 0).val, (i 0).isLt⟩ : Fin 8192) k) * wArr V c (ix2 (⟨(i 1).val, (i 1).isLt⟩ : Fin 16384) k))
    + bArr V c (ix2 (0 : Fin 1) (⟨(i 1).val, (i 1).isLt⟩ : Fin 16384))

/-- Entry (r, cc) of the output's block at point (i, j, ·) is entry (512 i + r, 2048 j + cc) of the array. -/
theorem oblk_emb (t : Fin cfg1.N) (r : Fin 512) (cc : Fin 2048) :
    ((cfg1.win 3).blk t).view.emb (ix2 r cc) = (ix2 (rowX (pI t) r) (rowW (pJ t) cc) : S8192x16384.Idx) := by
  obtain ⟨-, -, -, -, -, -, e0, e1⟩ := idx_facts t
  refine funext fun a => Fin.ext ?_
  match a with
  | ⟨0, _⟩ => show win1_3.index t (0 : Fin 2) * 512 + 1 * r.val = t.val / 32 * 512 + r.val; rw [e0]; omega
  | ⟨1, _⟩ => show win1_3.index t (1 : Fin 2) * 2048 + 1 * cc.val = t.val / 4 % 8 * 2048 + cc.val; rw [e1]; omega

/-- What a point with k = 3 writes back is its block of that function: the four shares are the whole sum. -/
theorem flushed_eq (c : Dev nD) (t : Fin cfg1.N) (hf : (cfg1.win 3).flush t = true) :
    (dat1 (F := Ideal) V c).flushed 3 t = ((cfg1.win 3).blk t).view.read (Elt Ideal) (yFun V c) := by
  have h3 : t.val % 4 = 3 := (flush1_3 t).mp hf
  have h0 : ¬t.val % 4 = 0 := by omega
  show (cfg1.win 3).cut (grid1.coords t) ((dat1 (F := Ideal) V c).after 3 t) = _
  rw [after1_3]
  funext y
  obtain ⟨r, cc, rfl⟩ : ∃ (r : Fin 512) (cc : Fin 2048), y = ix2 r cc := ⟨y 0, y 1, eq_ix2 y⟩
  show (outsAt1 V c t.val t.isLt).1 (ix2 r cc) = yFun V c (((cfg1.win 3).blk t).view.emb (ix2 r cc))
  rw [oblk_emb t r cc, out_at_C V c t h0 h3 r cc, acc_inv V c t.val t rfl r cc, h3, Cert.Algebra.partial_last, sum_blockSum]
  rfl

/-- An index of the array is in point `t`'s block iff each coordinate is in the block's range on its axis. -/
theorem mem_oblk (t : Fin cfg1.N) (i : S8192x16384.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v3).slice (win1_3.rect t)).set ↔ _
  rw [View.set_slice_whole, Rect.mem_set_unit]
  exact Iff.rfl

/-- Every entry (p, o) lies in the block written back at the point (p / 512, o / 2048, 3). -/
theorem covered (i : S8192x16384.Idx) :
    ∃ t : Fin cfg1.N, (cfg1.win 3).flush t = true ∧ i ∈ ((cfg1.win 3).blk t).view.set := by
  have hi0 : (i 0).val < 8192 := (i 0).isLt
  have hi1 : (i 1).val < 16384 := (i 1).isLt
  have hN : cfg1.N = 512 := N_1
  obtain ⟨t, ht⟩ : ∃ t : Fin cfg1.N, t.val = 4 * (8 * ((i 0).val / 512) + (i 1).val / 2048) + 3 :=
    ⟨⟨4 * (8 * ((i 0).val / 512) + (i 1).val / 2048) + 3, by omega⟩, rfl⟩
  obtain ⟨-, -, -, -, -, -, e0, e1⟩ := idx_facts t
  refine ⟨t, (flush1_3 t).mpr (by omega), ?_⟩
  rw [mem_oblk]
  intro a
  match a with
  | ⟨0, _⟩ => show win1_3.index t (0 : Fin 2) * 512 ≤ (i 0).val ∧ (i 0).val < win1_3.index t (0 : Fin 2) * 512 + 512; rw [e0]; omega
  | ⟨1, _⟩ => show win1_3.index t (1 : Fin 2) * 2048 ≤ (i 1).val ∧ (i 1).val < win1_3.index t (1 : Fin 2) * 2048 + 2048; rw [e1]; omega

/-- So after the last point the output array holds that function. -/
theorem yArr_eq (c : Dev nD) : yArr V c = yFun V c :=
  (dat1 (F := Ideal) V c).arrAt_eq_of_cover 3 (yFun V c) (flushed_eq V c) covered

end Region

/-- Entry by entry: the product of the activations with the transposed weight, plus the bias. -/
theorem region1_value : Region1Value := fun V c r o => congrFun (yArr_eq V c) (ix2 r o)

end Cert.KernelIdeal.Val1

end
-- ==== Proof.RefValue.lean ====
import proofs.«138467_j74577812128642_1_alg».proof.Defs
import proofs.«138467_j74577812128642_1_alg».proof.Proof.Gen.ReferenceIdeal.Run
import proofs.«138467_j74577812128642_1_alg».proof.Proof.Gen.ReferenceIdeal.Read
import proofs.«138467_j74577812128642_1_alg».proof.Proof.Spec
import Idealize.ShloMosaic.PureOps.Reduce
import Idealize.ShloMosaic.PureOps.Ideal.Laws
import Idealize.ShloMosaic.Lib.ValueIdx
import Mathlib.Data.Finset.Fold
import Mathlib.Data.Finset.Image

/-
  The reference, read entry by entry, is the specification.

  The reference cuts the weight w : [16384, 4096] into blocks by viewing it as [a, r, j, k] = w[128 a + r, 128 j + k]
  and exchanging the two middle axes; block (a, j) then holds the positions (r, k). The maximum of |w| over the two
  position axes, taken from −∞, ranges over exactly the 128 × 128 positions of the block, so it is the
  specification's block maximum; the scale, the clamped quotient and the restored entry follow position by position.
  Undoing the view sends entry (o, k) of the flat weight to block (o / 128, k / 128), position (o mod 128, k mod 128),
  and 128 (o / 128) + o mod 128 = o. The contraction and the bias then give the specification's sum.
-/

noncomputable section

namespace Cert.ReferenceIdeal.RefValue

open Cert.ReferenceIdeal Cert.ReferenceIdeal.Gen Cert.ReferenceIdeal.Read Idealize.ShloMosaic Idealize.ShloMosaic.ValueIdx

/-- The weight's entry that position (r, k) of block (a, j) holds, read through the transpose and the reshape. -/
theorem idx_v0_v1 (a : Fin 128) (j : Fin 32) (r k : Fin 128) :
    idx_main_v0 (idx_main_v1 (ix4 a j r k)) = ix2 (Spec.rowOf a r) (Spec.colOf j k) := by
  have ha := a.isLt; have hj := j.isLt; have hr := r.isLt; have hk := k.isLt
  funext d
  apply Fin.ext
  match d with
  | ⟨0, _⟩ =>
    show (((a.val * 128 + r.val) * 32 + j.val) * 128 + k.val) / 4096 = a.val * 128 + r.val
    omega
  | ⟨1, _⟩ =>
    show (((a.val * 128 + r.val) * 32 + j.val) * 128 + k.val) % 4096 = j.val * 128 + k.val
    omega

/-- The blocked view of the weight at (a, j, r, k). -/
theorem v1_at (x1 : (⟨S16384x4096, .f32⟩ : BufTy).Contents (Elt Ideal)) (a : Fin 128) (j : Fin 32) (r k : Fin 128) :
    val_main_v1 (F := Ideal) x1 (ix4 a j r k) = x1 (ix2 (Spec.rowOf a r) (Spec.colOf j k)) := by
  rw [val_main_v1_apply, val_main_v0_apply, idx_v0_v1]

/-- Its magnitude. -/
theorem v2_at (x1 : (⟨S16384x4096, .f32⟩ : BufTy).Contents (Elt Ideal)) (a : Fin 128) (j : Fin 32) (r k : Fin 128) :
    val_main_v2 (F := Ideal) x1 (ix4 a j r k) = Spec.eabs (x1 (ix2 (Spec.rowOf a r) (Spec.colOf j k))) := by
  rw [val_main_v2_apply, v1_at]
  rfl

/-- The source positions of the maximum at block (a, j) are exactly the block's 128 × 128 positions. -/
theorem drop_fiber (a : Fin 128) (j : Fin 32) :
    (Finset.univ.filter fun i : S128x32x128x128.Idx => reducesTo_S128x32x128x128_S128x32_d2_3.drop i = ix2 a j)
      = (Finset.univ : Finset (Fin 128 × Fin 128)).image fun p => ix4 a j p.1 p.2 := by
  ext i
  simp only [Finset.mem_filter, Finset.mem_univ, true_and, Finset.mem_image]
  constructor
  · intro hi
    have h0 : (i 0 : Nat) = a.val := by
      rw [← reducesTo_S128x32x128x128_S128x32_d2_3.drop_apply_val_of_eq i 0 0, hi]
    have h1 : (i 1 : Nat) = j.val := by
      rw [← reducesTo_S128x32x128x128_S128x32_d2_3.drop_apply_val_of_eq i 1 1, hi]
    refine ⟨(i 2, i 3), ?_⟩
    funext d
    apply Fin.ext
    match d with
    | ⟨0, _⟩ => exact h0.symm
    | ⟨1, _⟩ => exact h1.symm
    | ⟨2, _⟩ => rfl
    | ⟨3, _⟩ => rfl
  · rintro ⟨p, rfl⟩
    funext b
    apply Fin.ext
    match b with
    | ⟨0, _⟩ => exact reducesTo_S128x32x128x128_S128x32_d2_3.drop_apply_val_of_eq _ 0 0
    | ⟨1, _⟩ => exact reducesTo_S128x32x128x128_S128x32_d2_3.drop_apply_val_of_eq _ 1 1

/-- Two positions of one block with the same index are the same position. -/
theorem ix4_block_injective (a : Fin 128) (j : Fin 32) :
    Function.Injective fun p : Fin 128 × Fin 128 => (ix4 a j p.1 p.2 : S128x32x128x128.Idx) := by
  intro p q e
  have e2 := congrFun e 2
  have e3 := congrFun e 3
  exact Prod.ext e2 e3

/-- The maximum over the two block axes, from −∞, is the specification's block maximum. -/
theorem v3_at (x1 : (⟨S16384x4096, .f32⟩ : BufTy).Contents (Elt Ideal)) (a : Fin 128) (j : Fin 32) :
    val_main_v3 (F := Ideal) x1 (ix2 a j) = Spec.blockMax x1 a j := by
  unfold val_main_v3
  rw [Host.reduce_eq_fold, drop_fiber, Finset.fold_image fun p _ q _ e => ix4_block_injective a j e]
  unfold Spec.blockMax
  exact Finset.fold_congr fun p _ => v2_at x1 a j p.1 p.2

/-- The block's scale, as the reference holds it with two unit axes. -/
theorem v8_at (x1 : (⟨S16384x4096, .f32⟩ : BufTy).Contents (Elt Ideal)) (a : Fin 128) (j : Fin 32) (u v : Fin 1) :
    val_main_v8 (F := Ideal) x1 (ix4 a j u v) = Spec.scale x1 a j := by
  have e4 : idx_main_v4 (ix4 a j u v) = ix2 a j := by
    funext d
    match d with
    | ⟨0, _⟩ => rfl
    | ⟨1, _⟩ => rfl
  rw [val_main_v8_apply, val_main_v6_apply, val_main_v4_apply, e4, v3_at, val_main_v5_apply, val_main_cst_0_apply,
    val_main_v7_apply, val_main_cst_1_apply]
  rfl

/-- The scale spread over the block's positions (the divisor's copy). -/
theorem v9_at (x1 : (⟨S16384x4096, .f32⟩ : BufTy).Contents (Elt Ideal)) (a : Fin 128) (j : Fin 32) (r k : Fin 128) :
    val_main_v9 (F := Ideal) x1 (ix4 a j r k) = Spec.scale x1 a j := by
  have e9 : idx_main_v9 (ix4 a j r k) = ix4 a j (0 : Fin 1) (0 : Fin 1) := by
    funext d
    match d with
    | ⟨0, _⟩ => rfl
    | ⟨1, _⟩ => rfl
    | ⟨2, _⟩ => rfl
    | ⟨3, _⟩ => rfl
  rw [val_main_v9_apply, e9, v8_at]

/-- The scale spread over the block's positions (the multiplier's copy). -/
theorem v12_at (x1 : (⟨S16384x4096, .f32⟩ : BufTy).Contents (Elt Ideal)) (a : Fin 128) (j : Fin 32) (r k : Fin 128) :
    val_main_v12 (F := Ideal) x1 (ix4 a j r k) = Spec.scale x1 a j := by
  have e12 : idx_main_v12 (ix4 a j r k) = ix4 a j (0 : Fin 1) (0 : Fin 1) := by
    funext d
    match d with
    | ⟨0, _⟩ => rfl
    | ⟨1, _⟩ => rfl
    | ⟨2, _⟩ => rfl
    | ⟨3, _⟩ => rfl
  rw [val_main_v12_apply, e12, v8_at]

/-- The clamped quotient at a block position. -/
theorem v11_at (x1 : (⟨S16384x4096, .f32⟩ : BufTy).Contents (Elt Ideal)) (a : Fin 128) (j : Fin 32) (r k : Fin 128) :
    val_main_v11 (F := Ideal) x1 (ix4 a j r k)
      = min Spec.hi (max Spec.lo (Ideal.div (x1 (ix2 (Spec.rowOf a r) (Spec.colOf j k))) (Spec.scale x1 a j))) := by
  rw [val_main_v11_apply, val_main_call0_v4_apply, val_main_call0_v3_apply, val_main_cst_3_apply,
    val_main_call0_v2_apply, val_main_call0_v1_apply, val_main_call0_v0_apply, val_main_cst_2_apply,
    val_main_v10_apply, v1_at, v9_at]
  rfl

/-- The restored entry at a block position. -/
theorem v13_at (x1 : (⟨S16384x4096, .f32⟩ : BufTy).Contents (Elt Ideal)) (a : Fin 128) (j : Fin 32) (r k : Fin 128) :
    val_main_v13 (F := Ideal) x1 (ix4 a j r k)
      = min Spec.hi (max Spec.lo (Ideal.div (x1 (ix2 (Spec.rowOf a r) (Spec.colOf j k))) (Spec.scale x1 a j)))
          * Spec.scale x1 a j := by
  rw [val_main_v13_apply, v11_at, v12_at]
  rfl

/-- A row's place inside its block-row, and a column's inside its block-column. -/
def rowIn (o : Fin 16384) : Fin 128 := ⟨o.val % 128, Nat.mod_lt _ (by decide)⟩
def colIn (k : Fin 4096) : Fin 128 := ⟨k.val % 128, Nat.mod_lt _ (by decide)⟩

theorem rowOf_blockRow (o : Fin 16384) : Spec.rowOf (Spec.blockRow o) (rowIn o) = o := by
  apply Fin.ext
  show o.val / 128 * 128 + o.val % 128 = o.val
  omega

theorem colOf_blockCol (k : Fin 4096) : Spec.colOf (Spec.blockCol k) (colIn k) = k := by
  apply Fin.ext
  show k.val / 128 * 128 + k.val % 128 = k.val
  omega

/-- Entry (o, k) of the flat weight sits at block (o / 128, k / 128), position (o mod 128, k mod 128). -/
theorem idx_v15_v14 (o : Fin 16384) (k : Fin 4096) :
    idx_main_v14 (idx_main_v15 (ix2 o k)) = ix4 (Spec.blockRow o) (Spec.blockCol k) (rowIn o) (colIn k) := by
  have ho := o.isLt; have hk := k.isLt
  funext d
  apply Fin.ext
  match d with
  | ⟨0, _⟩ =>
    show (o.val * 4096 + k.val) / 524288 = o.val / 128
    omega
  | ⟨1, _⟩ =>
    show (o.val * 4096 + k.val) / 128 % 32 = k.val / 128
    omega
  | ⟨2, _⟩ =>
    show (o.val * 4096 + k.val) / 4096 % 128 = o.val % 128
    omega
  | ⟨3, _⟩ =>
    show (o.val * 4096 + k.val) % 128 = k.val % 128
    omega

/-- The quantized-and-restored weight, entry by entry, is the specification's. -/
theorem wq_apply (x1 : (⟨S16384x4096, .f32⟩ : BufTy).Contents (Elt Ideal)) (o : Fin 16384) (k : Fin 4096) :
    val_main_v15 (F := Ideal) x1 (ix2 o k) = Spec.deq x1 o k := by
  rw [val_main_v15_apply, val_main_v14_apply, idx_v15_v14, v13_at, rowOf_blockRow, colOf_blockCol]
  rfl

/-- The whole reference is the specification. -/
theorem ref_eq (x0 : (⟨S4x2048x4096, .f32⟩ : BufTy).Contents (Elt Ideal))
    (x1 : (⟨S16384x4096, .f32⟩ : BufTy).Contents (Elt Ideal)) (x2 : (⟨S16384, .f32⟩ : BufTy).Contents (Elt Ideal)) :
    val_main_v19 (F := Ideal) x0 x1 x2 = Spec.G x0 x1 x2 := by
  funext i
  have el : ∀ k : Fin 4096, lidx_main_v16 i k = ix3 (i 0) (i 1) k := fun k => by
    funext d
    match d with
    | ⟨0, _⟩ => rfl
    | ⟨1, _⟩ => rfl
    | ⟨2, _⟩ => rfl
  have er : ∀ k : Fin 4096, ridx_main_v16 i k = ix2 (i 2) k := fun k => by
    funext d
    match d with
    | ⟨0, _⟩ => rfl
    | ⟨1, _⟩ => rfl
  have eb : idx_main_v17 (idx_main_v18 i) = ix1 (i 2) := by
    funext d
    match d with
    | ⟨0, _⟩ => rfl
  rw [val_main_v19_apply, val_main_v16_apply, val_main_v18_apply, val_main_v17_apply, eb]
  show (∑ k : Fin 4096, x0 (lidx_main_v16 i k) * val_main_v15 (F := Ideal) x1 (ridx_main_v16 i k)) + x2 (ix1 (i 2))
    = (∑ k : Fin 4096, x0 (ix3 (i 0) (i 1) k) * Spec.deq x1 (i 2) k) + x2 (ix1 (i 2))
  congr 1
  refine Finset.sum_congr rfl fun k _ => ?_
  have hl : x0 (lidx_main_v16 i k) = x0 (ix3 (i 0) (i 1) k) := congrArg x0 (el k)
  have hr : val_main_v15 (F := Ideal) x1 (ridx_main_v16 i k) = Spec.deq x1 (i 2) k :=
    (congrArg (val_main_v15 (F := Ideal) x1) (er k)).trans (wq_apply x1 (i 2) k)
  rw [hl, hr]

end Cert.ReferenceIdeal.RefValue

end
-- ==== Proof.lean ====
/-
  The kernel block-quantizes the weight in 128 × 128 blocks (each entry divided by its block's scale, clamped to
  [−448, 448], multiplied back) and then multiplies: Y = X · Wqᵀ + b, the contraction summed as four blocks of 1024
  columns into an accumulator that starts from zero. The reference does the same quantization on a transposed
  copy and one whole contraction. Over the extended reals the two results are one function of the arguments:
  the block's maximum does not depend on the order its 128 × 128 magnitudes are compared in, and a sum of 4096
  terms does not depend on how it is grouped (addition on the extended reals is commutative and associative, and
  0 + x = x); no finiteness of the inputs is used. Each program runs to the end, faults nowhere and leaves its
  arguments unchanged: no item of either program writes an argument.
-/
import proofs.«138467_j74577812128642_1_alg».proof.Defs
import proofs.«138467_j74577812128642_1_alg».proof.Proof.Gen.Kernel
import proofs.«138467_j74577812128642_1_alg».proof.Proof.Gen.KernelIdeal
import proofs.«138467_j74577812128642_1_alg».proof.Proof.Gen.ReferenceIdeal
import proofs.«138467_j74577812128642_1_alg».proof.Proof.Gen.Pre_finite_inputs
import proofs.«138467_j74577812128642_1_alg».proof.Proof.Gen.ReferenceIdeal.Run
import proofs.«138467_j74577812128642_1_alg».proof.Proof.Gen.ReferenceIdeal.Read
import proofs.«138467_j74577812128642_1_alg».proof.Proof.KRun
import proofs.«138467_j74577812128642_1_alg».proof.Proof.KIRun
import proofs.«138467_j74577812128642_1_alg».proof.Proof.KIValue
import proofs.«138467_j74577812128642_1_alg».proof.Proof.KIVal1
import proofs.«138467_j74577812128642_1_alg».proof.Proof.RefValue

noncomputable section

namespace Cert.Proof

open Idealize.ShloMosaic Idealize.ShloMosaic.TcCoe Idealize.SL.Sem

/-- The program as printed runs to the end and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at the specification's function of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
      ⟨(h c _ (Cert.KernelIdeal.Hand.mem_uc Cert.KernelIdeal.main_v4 (by decide))).trans (Cert.KernelIdeal.Val.value_v4 m ρ Cert.KernelIdeal.Val1.region1_value c),
       (h c _ (Cert.KernelIdeal.Hand.mem_uc Cert.KernelIdeal.main_arg0 (by decide))).trans (Cert.KernelIdeal.Hand.Wb4_main_arg0 m ρ c),
       (h c _ (Cert.KernelIdeal.Hand.mem_uc Cert.KernelIdeal.main_arg1 (by decide))).trans (Cert.KernelIdeal.Hand.Wb4_main_arg1 m ρ c),
       (h c _ (Cert.KernelIdeal.Hand.mem_uc Cert.KernelIdeal.main_arg2 (by decide))).trans (Cert.KernelIdeal.Hand.Wb4_main_arg2 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v19_eq _ _ _).trans (Cert.ReferenceIdeal.RefValue.ref_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
